-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v29 : IVec S_ 1) (main_v33 : IVec S1600000 1) (main_c_11 : IVec S_ 1) : IVec S_ 1 :=
  let main_v34 : IVec S_ 1 := (fun x v => Host.reduce IntOp.andi x v reducesTo_S1600000_S_d0 h_S_) main_v33 main_c_11
  let main_v35 : IVec S_ 1 := andi main_v29 main_v34
  main_v35

def fn_part1 {F : FTy → Type} [FloatOps F] (main_arg4 : FVec F S64 .f32) (main_arg5 : IVec S2x1600000 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S1x1600000 32 := (extractStridedSlice S1x1600000 ![0, 0] · slices_S2x1600000_S1x1600000_0_0) main_arg5
  let main_v25 : IVec S1600000 32 := shapeCast S1600000 main_v24 shapeCasts_S1x1600000_S1600000
  let main_c_8 : IVec S_ 32 := constantI S_ 32 0#32
  let main_v26 : IVec S1600000 32 := broadcastInDim S1600000 ![] bcast_S_S1600000 main_c_8
  let main_v27 : IVec S1600000 1 := cmpi .sge main_v25 main_v26
  let main_c_9 : IVec S_ 1 := constantI S_ 1 1#1
  let main_v28 : IVec S_ 1 := (fun x v => Host.reduce IntOp.andi x v reducesTo_S1600000_S_d0 h_S_) main_v27 main_c_9
  let main_v29 : IVec S_ 1 := andi main_v23 main_v28
  let main_v30 : IVec S1x1600000 32 := (extractStridedSlice S1x1600000 ![0, 0] · slices_S2x1600000_S1x1600000_0_0) main_arg5
  let main_v31 : IVec S1600000 32 := shapeCast S1600000 main_v30 shapeCasts_S1x1600000_S1600000
  let main_c_10 : IVec S_ 32 := constantI S_ 32 100000#32
  let main_v32 : IVec S1600000 32 := broadcastInDim S1600000 ![] bcast_S_S1600000 main_c_10
  let main_v33 : IVec S1600000 1 := cmpi .slt main_v31 main_v32
  let main_c_11 : IVec S_ 1 := constantI S_ 1 1#1
  fn_part2 (F := F) main_v29 main_v33 main_c_11

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S1 : Shape := ⟨1, ![1]⟩
abbrev S1x1 : Shape := ⟨2, ![1, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 132
  | .vmem => 20
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x64, .f32⟩
  | 4 => ⟨S64, .f32⟩
  | 5 => ⟨S2x1600000, .i32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S100000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1, .i32⟩
  | 30 => ⟨S_, .i32⟩
  | 31 => ⟨S1600000x1, .i32⟩
  | 32 => ⟨S1600000x1, .i1⟩
  | 33 => ⟨S1x1, .i32⟩
  | 34 => ⟨S1600000x1, .i32⟩
  | 35 => ⟨S1600000x1, .i1⟩
  | 36 => ⟨S1600000x1, .i1⟩
  | 37 => ⟨S_, .i1⟩
  | 38 => ⟨S1600000, .i1⟩
  | 39 => ⟨S1600000x128, .f32⟩
  | 40 => ⟨S1600000x128, .i1⟩
  | 41 => ⟨S_, .f32⟩
  | 42 => ⟨S1600000x128, .f32⟩
  | 43 => ⟨S1600000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S1600000, .f32⟩
  | 63 => ⟨S1600000x1, .f32⟩
  | 64 => ⟨S1600000x128, .f32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S100000, .f32⟩
  | 71 => ⟨S100000x1, .f32⟩
  | 72 => ⟨S100000x128, .f32⟩
  | 73 => ⟨S100000x128, .f32⟩
  | 74 => ⟨S100000x128, .f32⟩
  | 75 => ⟨S100000x128, .f32⟩
  | 76 => ⟨S100000x64, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1, .i32⟩
  | 86 => ⟨S_, .i32⟩
  | 87 => ⟨S1600000x1, .i32⟩
  | 88 => ⟨S1600000x1, .i1⟩
  | 89 => ⟨S1x1, .i32⟩
  | 90 => ⟨S1600000x1, .i32⟩
  | 91 => ⟨S1600000x1, .i1⟩
  | 92 => ⟨S1600000x1, .i1⟩
  | 93 => ⟨S_, .i1⟩
  | 94 => ⟨S1600000, .i1⟩
  | 95 => ⟨S1600000x64, .f32⟩
  | 96 => ⟨S1600000x64, .i1⟩
  | 97 => ⟨S_, .f32⟩
  | 98 => ⟨S1600000x64, .f32⟩
  | 99 => ⟨S1600000x64, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000, .f32⟩
  | 118 => ⟨S1600000, .f32⟩
  | 119 => ⟨S1600000x1, .f32⟩
  | 120 => ⟨S1600000x64, .f32⟩
  | 121 => ⟨S1600000x64, .f32⟩
  | 122 => ⟨S_, .f32⟩
  | 123 => ⟨S100000x64, .f32⟩
  | 124 => ⟨S1600000x1, .i32⟩
  | 125 => ⟨S100000x64, .f32⟩
  | 126 => ⟨S100000, .f32⟩
  | 127 => ⟨S100000x1, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v12 : Ref sig .tc := ⟨.hbm, 43, rfl⟩
abbrev main_c : Ref sig .tc := ⟨.hbm, 44, rfl⟩
abbrev main_v13 : Ref sig .tc := ⟨.hbm, 45, rfl⟩
abbrev main_v14 : Ref sig .tc := ⟨.hbm, 46, rfl⟩
abbrev main_c_2 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_c_3 : Ref sig .tc := ⟨.hbm, 53, rfl⟩
abbrev main_v20 : Ref sig .tc := ⟨.hbm, 54, rfl⟩
abbrev main_v21 : Ref sig .tc := ⟨.hbm, 55, rfl⟩
abbrev main_c_4 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_call1_cst : Ref sig .tc := ⟨.hbm, 97, rfl⟩
abbrev main_call1_v15 : Ref sig .tc := ⟨.hbm, 98, rfl⟩
abbrev main_v41 : Ref sig .tc := ⟨.hbm, 99, rfl⟩
abbrev main_c_6 : Ref sig .tc := ⟨.hbm, 100, rfl⟩
abbrev main_v42 : Ref sig .tc := ⟨.hbm, 101, rfl⟩
abbrev main_v43 : Ref sig .tc := ⟨.hbm, 102, rfl⟩
abbrev main_c_7 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_c_8 : Ref sig .tc := ⟨.hbm, 109, rfl⟩
abbrev main_v49 : Ref sig .tc := ⟨.hbm, 110, rfl⟩
abbrev main_v50 : Ref sig .tc := ⟨.hbm, 111, rfl⟩
abbrev main_c_9 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_cst_10 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000, .f32⟩
  | .hbm, ⟨114, _⟩ => ⟨S100000x1, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KLayer.lean ====
/-
  The graph-side terms of the convolution in the kernel program's own operations: the edge list's two rows, the degree
  normaliser, the edge and self-loop weights, and one aggregation from gathered rows (scatter-add into the targets plus
  the self-loop term).
-/
import proofs.«428287_j9852654977192_1_alg».proof.KernelIdeal
import proofs.«428287_j9852654977192_1_alg».proof.Proof.Gen.KernelIdeal

noncomputable section

namespace Cert.KernelIdeal.Hand

open Idealize.ShloMosaic Cert.KernelIdeal Cert.KernelIdeal.Facts Cert.KernelIdeal.Facts₀

variable {F : FTy → Type} [FloatOps F]

/-- Row 0 of the edge list: the source node of every edge. -/
def srcOf (ei : IVec S2x1600000 32) : IVec S1600000 32 :=
  shapeCast S1600000 (extractStridedSlice S1x1600000 ![0, 0] ei slices_S2x1600000_S1x1600000_0_0) shapeCasts_S1x1600000_S1600000

/-- Row 1 of the edge list: the target node of every edge. -/
def dstOf (ei : IVec S2x1600000 32) : IVec S1600000 32 :=
  shapeCast S1600000 (extractStridedSlice S1x1600000 ![1, 0] ei slices_S2x1600000_S1x1600000_1_0) shapeCasts_S1x1600000_S1600000

/-- deg⁻¹ᐟ², where deg counts the edges into a node and its self loop. -/
def dinvOf (dst : IVec S1600000 32) : FVec F S100000 .f32 :=
  Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- An index vector as the column a row gather reads, a negative entry wrapped by the axis length. -/
def nidx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Every source index names a node: 0 ≤ s e < 100000 as signed 32-bit integers. -/
def SrcOk (s : IVec S1600000 32) : Prop := ∀ e : S1600000.Idx, 0 ≤ (s e).toInt ∧ (s e).toInt < 100000

/-- The edge weight dinv[src] · dinv[dst], as a column. -/
def normOf (dinv : FVec F S100000 .f32) (src dst : IVec S1600000 32) : FVec F S1600000x1 .f32 :=
  broadcastInDim S1600000x1 ![0] bcast_S1600000_S1600000x1_0
    (mulf (Host.gather gather_S100000_S1600000x1_S1600000_n_0_n_n_0_1_1 dinv (nidx src))
          (Host.gather gather_S100000_S1600000x1_S1600000_n_0_n_n_0_1_1 dinv (nidx dst)))

/-- The self-loop weight dinv², as a column. -/
def selfOf (dinv : FVec F S100000 .f32) : FVec F S100000x1 .f32 :=
  broadcastInDim S100000x1 ![0] bcast_S100000_S100000x1_0 (mulf dinv dinv)

/-- One aggregation over 128 features from the gathered rows G: the weighted rows summed into their targets, plus the
    self-loop term. -/
def agg128 (H : FVec F S100000x128 .f32) (G : FVec F S1600000x128 .f32) (src dst : IVec S1600000 32) (dinv : FVec F S100000 .f32) :
    FVec F S100000x128 .f32 :=
  addf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (mulf G (broadcastInDim S1600000x128 ![0, 1] bcast_S1600000x1_S1600000x128_0_1 (normOf dinv src dst))))
    (mulf H (broadcastInDim S100000x128 ![0, 1] bcast_S100000x1_S100000x128_0_1 (selfOf dinv)))

/-- The same over 64 features. -/
def agg64 (H : FVec F S100000x64 .f32) (G : FVec F S1600000x64 .f32) (src dst : IVec S1600000 32) (dinv : FVec F S100000 .f32) :
    FVec F S100000x64 .f32 :=
  addf (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (mulf G (broadcastInDim S1600000x64 ![0, 1] bcast_S1600000x1_S1600000x64_0_1 (normOf dinv src dst))))
    (mulf H (broadcastInDim S100000x64 ![0, 1] bcast_S100000x1_S100000x64_0_1 (selfOf dinv)))

/-- The graph convolution of H: its rows gathered at the edges' sources, then aggregated. -/
def conv128 (H : FVec F S100000x128 .f32) (src dst : IVec S1600000 32) (dinv : FVec F S100000 .f32) : FVec F S100000x128 .f32 :=
  agg128 H (Host.gather gather_S100000x128_S1600000x1_S1600000x128_1_0_n_n_0_1_1128 H (nidx src)) src dst dinv

def conv64 (H : FVec F S100000x64 .f32) (src dst : IVec S1600000 32) (dinv : FVec F S100000 .f32) : FVec F S100000x64 .f32 :=
  agg64 H (Host.gather gather_S100000x64_S1600000x1_S1600000x64_1_0_n_n_0_1_164 H (nidx src)) src dst dinv

end Cert.KernelIdeal.Hand

end
-- ==== Proof.Spec.lean ====
/-
  The two dense layers of the graph convolution as whole-array functions over the extended reals, index by index:
  a row of the feature matrix against a column of the weight matrix, summed over the 128 shared coordinates;
  a bias row added to every row; and the positive part.  Both programs are compared through these.
-/
import Idealize.ShloMosaic.PureOps.Ideal
import Idealize.ShloMosaic.Lib.ValueIdx

noncomputable section

namespace Cert.Gcn

open Idealize.ShloMosaic Idealize.ShloMosaic.ValueIdx

abbrev SNx128 : Shape := ⟨2, ![100000, 128]⟩
abbrev SNx64 : Shape := ⟨2, ![100000, 64]⟩
abbrev SW128 : Shape := ⟨2, ![128, 128]⟩
abbrev SW64 : Shape := ⟨2, ![128, 64]⟩
abbrev SB128 : Shape := ⟨1, ![128]⟩
abbrev SB64 : Shape := ⟨1, ![64]⟩

/-- (x · w)[r, c] = Σₖ x[r, k] · w[k, c], 128 output columns. -/
def mm128 (x : SNx128.Idx → EReal) (w : SW128.Idx → EReal) : SNx128.Idx → EReal :=
  fun i => ∑ k : Fin 128, x (ix2 (n0 := 100000) (n1 := 128) (i 0) k) * w (ix2 (n0 := 128) (n1 := 128) k (i 1))

/-- (x · w)[r, c] = Σₖ x[r, k] · w[k, c], 64 output columns. -/
def mm64 (x : SNx128.Idx → EReal) (w : SW64.Idx → EReal) : SNx64.Idx → EReal :=
  fun i => ∑ k : Fin 128, x (ix2 (n0 := 100000) (n1 := 128) (i 0) k) * w (ix2 (n0 := 128) (n1 := 64) k (i 1))

/-- max(a[r, c] + b[c], 0). -/
def biasRelu128 (a : SNx128.Idx → EReal) (b : SB128.Idx → EReal) : SNx128.Idx → EReal :=
  fun i => max (a i + b (ix1 (n := 128) (i 1))) 0

/-- a[r, c] + b[c]. -/
def bias64 (a : SNx64.Idx → EReal) (b : SB64.Idx → EReal) : SNx64.Idx → EReal :=
  fun i => a i + b (ix1 (n := 64) (i 1))

end Cert.Gcn

end
-- ==== Proof.Chain.lean ====
/-
  The kernel program's result array read back through its nine segments: each host stretch's operations applied to
  what the stretch found, each dense region's output array as the whole-array function of its inputs, the gathered
  rows as the plain gather when every source index names a node.  What comes out is two graph convolutions around the
  two dense layers, over the launch contents of the six arguments.
-/
import proofs.«428287_j9852654977192_1_alg».proof.Proof.Gen.KernelIdeal.Frame
import proofs.«428287_j9852654977192_1_alg».proof.Proof.KLayer
import proofs.«428287_j9852654977192_1_alg».proof.Proof.Spec
import Idealize.ShloMosaic.Lib.StableHlo.Run

noncomputable section

namespace Cert.KernelIdeal.Hand

open Idealize.ShloMosaic Idealize.ShloMosaic.TcCoe Idealize.SL.Sem Cert.KernelIdeal Cert.KernelIdeal.Gen

/-- A buffer no operation of a host stretch writes holds after the stretch what it held before. -/
local macro "keep_through " ops:ident : term =>
  `(StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

/-- The kernel program's two layers over its six arguments. -/
def kout (x : FVec Ideal S100000x128 .f32) (w1 : FVec Ideal S128x128 .f32) (b1 : FVec Ideal S128 .f32) (w2 : FVec Ideal S128x64 .f32)
    (b2 : FVec Ideal S64 .f32) (ei : IVec S2x1600000 32) : FVec Ideal S100000x64 .f32 :=
  Cert.Gcn.bias64 (conv64 (F := Ideal) (Cert.Gcn.mm64 (Cert.Gcn.biasRelu128
      (conv128 (F := Ideal) (Cert.Gcn.mm128 x w1) (srcOf ei) (dstOf ei) (dinvOf (dstOf ei))) b1) w2)
    (srcOf ei) (dstOf ei) (dinvOf (dstOf ei))) b2

variable (m : (ℓ : Loc nD τ sig) → Buf (Elt Ideal) ℓ) (ρ : Dev nD → PrngReg)

/-! ## After the first host stretch -/

theorem W1_v1 (c : Dev nD) : W1 m ρ c (Proc.devRef .tc main_v1) = (srcOf (m ((c : Thread nD τ).loc main_arg5))) := by
  show StableHlo.after hostOps0 (W0 m ρ c) (Proc.devRef .tc main_v1) = _
  after_results
  rfl
theorem W1_v3 (c : Dev nD) : W1 m ρ c (Proc.devRef .tc main_v3) = (dstOf (m ((c : Thread nD τ).loc main_arg5))) := by
  show StableHlo.after hostOps0 (W0 m ρ c) (Proc.devRef .tc main_v3) = _
  after_results
  rfl
theorem W1_v10 (c : Dev nD) : W1 m ρ c (Proc.devRef .tc main_v10) = (dinvOf (F := Ideal) (dstOf (m ((c : Thread nD τ).loc main_arg5)))) := by
  show StableHlo.after hostOps0 (W0 m ρ c) (Proc.devRef .tc main_v10) = _
  after_results
  rfl
theorem W1_arg0 (c : Dev nD) : W1 m ρ c (Proc.devRef .tc main_arg0) = (m ((c : Thread nD τ).loc main_arg0)) :=
  show StableHlo.after hostOps0 (W0 m ρ c) (Proc.devRef .tc main_arg0) = W0 m ρ c (Proc.devRef .tc main_arg0) from keep_through hostOps0
theorem W1_arg1 (c : Dev nD) : W1 m ρ c (Proc.devRef .tc main_arg1) = (m ((c : Thread nD τ).loc main_arg1)) :=
  show StableHlo.after hostOps0 (W0 m ρ c) (Proc.devRef .tc main_arg1) = W0 m ρ c (Proc.devRef .tc main_arg1) from keep_through hostOps0
theorem W1_arg2 (c : Dev nD) : W1 m ρ c (Proc.devRef .tc main_arg2) = (m ((c : Thread nD τ).loc main_arg2)) :=
  show StableHlo.after hostOps0 (W0 m ρ c) (Proc.devRef .tc main_arg2) = W0 m ρ c (Proc.devRef .tc main_arg2) from keep_through hostOps0
theorem W1_arg3 (c : Dev nD) : W1 m ρ c (Proc.devRef .tc main_arg3) = (m ((c : Thread nD τ).loc main_arg3)) :=
  show StableHlo.after hostOps0 (W0 m ρ c) (Proc.devRef .tc main_arg3) = W0 m ρ c (Proc.devRef .tc main_arg3) from keep_through hostOps0
theorem W1_arg4 (c : Dev nD) : W1 m ρ c (Proc.devRef .tc main_arg4) = (m ((c : Thread nD τ).loc main_arg4)) :=
  show StableHlo.after hostOps0 (W0 m ρ c) (Proc.devRef .tc main_arg4) = W0 m ρ c (Proc.devRef .tc main_arg4) from keep_through hostOps0

/-! ## Through the first dense region: it writes none of these -/

theorem W2_v1 (c : Dev nD) : W2 m ρ c (Proc.devRef .tc main_v1) = (srcOf (m ((c : Thread nD τ).loc main_arg5))) :=
  (W2_of_ne m ρ c main_v1 (by decide)).trans (W1_v1 m ρ c)
theorem W2_v3 (c : Dev nD) : W2 m ρ c (Proc.devRef .tc main_v3) = (dstOf (m ((c : Thread nD τ).loc main_arg5))) :=
  (W2_of_ne m ρ c main_v3 (by decide)).trans (W1_v3 m ρ c)
theorem W2_v10 (c : Dev nD) : W2 m ρ c (Proc.devRef .tc main_v10) = (dinvOf (F := Ideal) (dstOf (m ((c : Thread nD τ).loc main_arg5)))) :=
  (W2_of_ne m ρ c main_v10 (by decide)).trans (W1_v10 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)

/-! ## Through the first row gather -/

theorem W3_v1 (c : Dev nD) : W3 m ρ c (Proc.devRef .tc main_v1) = (srcOf (m ((c : Thread nD τ).loc main_arg5))) :=
  (show StableHlo.after hostOps1 (W2 m ρ c) (Proc.devRef .tc main_v1) = W2 m ρ c (Proc.devRef .tc main_v1) from keep_through hostOps1).trans (W2_v1 m ρ c)
theorem W3_v3 (c : Dev nD) : W3 m ρ c (Proc.devRef .tc main_v3) = (dstOf (m ((c : Thread nD τ).loc main_arg5))) :=
  (show StableHlo.after hostOps1 (W2 m ρ c) (Proc.devRef .tc main_v3) = W2 m ρ c (Proc.devRef .tc main_v3) from keep_through hostOps1).trans (W2_v3 m ρ c)
theorem W3_v10 (c : Dev nD) : W3 m ρ c (Proc.devRef .tc main_v10) = (dinvOf (F := Ideal) (dstOf (m ((c : Thread nD τ).loc main_arg5)))) :=
  (show StableHlo.after hostOps1 (W2 m ρ c) (Proc.devRef .tc main_v10) = W2 m ρ c (Proc.devRef .tc main_v10) from keep_through hostOps1).trans (W2_v10 m ρ c)
theorem W3_arg2 (c : Dev nD) : W3 m ρ c (Proc.devRef .tc main_arg2) = (m ((c : Thread nD τ).loc main_arg2)) :=
  (show StableHlo.after hostOps1 (W2 m ρ c) (Proc.devRef .tc main_arg2) = W2 m ρ c (Proc.devRef .tc main_arg2) from keep_through hostOps1).trans (W2_arg2 m ρ c)
theorem W3_arg3 (c : Dev nD) : W3 m ρ c (Proc.devRef .tc main_arg3) = (m ((c : Thread nD τ).loc main_arg3)) :=
  (show StableHlo.after hostOps1 (W2 m ρ c) (Proc.devRef .tc main_arg3) = W2 m ρ c (Proc.devRef .tc main_arg3) from keep_through hostOps1).trans (W2_arg3 m ρ c)
theorem W3_arg4 (c : Dev nD) : W3 m ρ c (Proc.devRef .tc main_arg4) = (m ((c : Thread nD τ).loc main_arg4)) :=
  (show StableHlo.after hostOps1 (W2 m ρ c) (Proc.devRef .tc main_arg4) = W2 m ρ c (Proc.devRef .tc main_arg4) from keep_through hostOps1).trans (W2_arg4 m ρ c)

/-! ## Through the first aggregation -/

theorem W4_v1 (c : Dev nD) : W4 m ρ c (Proc.devRef .tc main_v1) = (srcOf (m ((c : Thread nD τ).loc main_arg5))) :=
  (show StableHlo.after hostOps1_1 (W3 m ρ c) (Proc.devRef .tc main_v1) = W3 m ρ c (Proc.devRef .tc main_v1) from keep_through hostOps1_1).trans (W3_v1 m ρ c)
theorem W4_v3 (c : Dev nD) : W4 m ρ c (Proc.devRef .tc main_v3) = (dstOf (m ((c : Thread nD τ).loc main_arg5))) :=
  (show StableHlo.after hostOps1_1 (W3 m ρ c) (Proc.devRef .tc main_v3) = W3 m ρ c (Proc.devRef .tc main_v3) from keep_through hostOps1_1).trans (W3_v3 m ρ c)
theorem W4_v10 (c : Dev nD) : W4 m ρ c (Proc.devRef .tc main_v10) = (dinvOf (F := Ideal) (dstOf (m ((c : Thread nD τ).loc main_arg5)))) :=
  (show StableHlo.after hostOps1_1 (W3 m ρ c) (Proc.devRef .tc main_v10) = W3 m ρ c (Proc.devRef .tc main_v10) from keep_through hostOps1_1).trans (W3_v10 m ρ c)
theorem W4_arg2 (c : Dev nD) : W4 m ρ c (Proc.devRef .tc main_arg2) = (m ((c : Thread nD τ).loc main_arg2)) :=
  (show StableHlo.after hostOps1_1 (W3 m ρ c) (Proc.devRef .tc main_arg2) = W3 m ρ c (Proc.devRef .tc main_arg2) from keep_through hostOps1_1).trans (W3_arg2 m ρ c)
theorem W4_arg3 (c : Dev nD) : W4 m ρ c (Proc.devRef .tc main_arg3) = (m ((c : Thread nD τ).loc main_arg3)) :=
  (show StableHlo.after hostOps1_1 (W3 m ρ c) (Proc.devRef .tc main_arg3) = W3 m ρ c (Proc.devRef .tc main_arg3) from keep_through hostOps1_1).trans (W3_arg3 m ρ c)
theorem W4_arg4 (c : Dev nD) : W4 m ρ c (Proc.devRef .tc main_arg4) = (m ((c : Thread nD τ).loc main_arg4)) :=
  (show StableHlo.after hostOps1_1 (W3 m ρ c) (Proc.devRef .tc main_arg4) = W3 m ρ c (Proc.devRef .tc main_arg4) from keep_through hostOps1_1).trans (W3_arg4 m ρ c)

/-! ## Through the bias region and the second dense region -/

theorem W5_v1 (c : Dev nD) : W5 m ρ c (Proc.devRef .tc main_v1) = (srcOf (m ((c : Thread nD τ).loc main_arg5))) :=
  (W5_of_ne m ρ c main_v1 (by decide)).trans (W4_v1 m ρ c)
theorem W5_v3 (c : Dev nD) : W5 m ρ c (Proc.devRef .tc main_v3) = (dstOf (m ((c : Thread nD τ).loc main_arg5))) :=
  (W5_of_ne m ρ c main_v3 (by decide)).trans (W4_v3 m ρ c)
theorem W5_v10 (c : Dev nD) : W5 m ρ c (Proc.devRef .tc main_v10) = (dinvOf (F := Ideal) (dstOf (m ((c : Thread nD τ).loc main_arg5)))) :=
  (W5_of_ne m ρ c main_v10 (by decide)).trans (W4_v10 m ρ c)
theorem W5_arg3 (c : Dev nD) : W5 m ρ c (Proc.devRef .tc main_arg3) = (m ((c : Thread nD τ).loc main_arg3)) :=
  (W5_of_ne m ρ c main_arg3 (by decide)).trans (W4_arg3 m ρ c)
theorem W5_arg4 (c : Dev nD) : W5 m ρ c (Proc.devRef .tc main_arg4) = (m ((c : Thread nD τ).loc main_arg4)) :=
  (W5_of_ne m ρ c main_arg4 (by decide)).trans (W4_arg4 m ρ c)
theorem W6_v1 (c : Dev nD) : W6 m ρ c (Proc.devRef .tc main_v1) = (srcOf (m ((c : Thread nD τ).loc main_arg5))) :=
  (W6_of_ne m ρ c main_v1 (by decide)).trans (W5_v1 m ρ c)
theorem W6_v3 (c : Dev nD) : W6 m ρ c (Proc.devRef .tc main_v3) = (dstOf (m ((c : Thread nD τ).loc main_arg5))) :=
  (W6_of_ne m ρ c main_v3 (by decide)).trans (W5_v3 m ρ c)
theorem W6_v10 (c : Dev nD) : W6 m ρ c (Proc.devRef .tc main_v10) = (dinvOf (F := Ideal) (dstOf (m ((c : Thread nD τ).loc main_arg5)))) :=
  (W6_of_ne m ρ c main_v10 (by decide)).trans (W5_v10 m ρ c)
theorem W6_arg4 (c : Dev nD) : W6 m ρ c (Proc.devRef .tc main_arg4) = (m ((c : Thread nD τ).loc main_arg4)) :=
  (W6_of_ne m ρ c main_arg4 (by decide)).trans (W5_arg4 m ρ c)

/-! ## Through the second row gather and the second aggregation -/

theorem W7_v1 (c : Dev nD) : W7 m ρ c (Proc.devRef .tc main_v1) = (srcOf (m ((c : Thread nD τ).loc main_arg5))) :=
  (show StableHlo.after hostOps3 (W6 m ρ c) (Proc.devRef .tc main_v1) = W6 m ρ c (Proc.devRef .tc main_v1) from keep_through hostOps3).trans (W6_v1 m ρ c)
theorem W7_v3 (c : Dev nD) : W7 m ρ c (Proc.devRef .tc main_v3) = (dstOf (m ((c : Thread nD τ).loc main_arg5))) :=
  (show StableHlo.after hostOps3 (W6 m ρ c) (Proc.devRef .tc main_v3) = W6 m ρ c (Proc.devRef .tc main_v3) from keep_through hostOps3).trans (W6_v3 m ρ c)
theorem W7_v10 (c : Dev nD) : W7 m ρ c (Proc.devRef .tc main_v10) = (dinvOf (F := Ideal) (dstOf (m ((c : Thread nD τ).loc main_arg5)))) :=
  (show StableHlo.after hostOps3 (W6 m ρ c) (Proc.devRef .tc main_v10) = W6 m ρ c (Proc.devRef .tc main_v10) from keep_through hostOps3).trans (W6_v10 m ρ c)
theorem W7_arg4 (c : Dev nD) : W7 m ρ c (Proc.devRef .tc main_arg4) = (m ((c : Thread nD τ).loc main_arg4)) :=
  (show StableHlo.after hostOps3 (W6 m ρ c) (Proc.devRef .tc main_arg4) = W6 m ρ c (Proc.devRef .tc main_arg4) from keep_through hostOps3).trans (W6_arg4 m ρ c)
theorem W8_arg4 (c : Dev nD) : W8 m ρ c (Proc.devRef .tc main_arg4) = (m ((c : Thread nD τ).loc main_arg4)) :=
  (show StableHlo.after hostOps3_1 (W7 m ρ c) (Proc.devRef .tc main_arg4) = W7 m ρ c (Proc.devRef .tc main_arg4) from keep_through hostOps3_1).trans (W7_arg4 m ρ c)

/-! ## The two aggregation stretches, from any contents -/

set_option maxRecDepth 8192 in
set_option maxHeartbeats 8000000 in
/-- The first aggregation stretch leaves in its last buffer the aggregation of what it found: the dense layer's
    array, the gathered rows, the two index rows and the normaliser. -/
theorem aggStretch128 (W : Valuation τ sig (Elt Ideal)) :
    StableHlo.after (hostOps1_1 (F := Ideal)) W (Proc.devRef .tc main_v38)
      = agg128 (F := Ideal) (W (Proc.devRef .tc main_v11)) (W (Proc.devRef .tc main_v12)) (W (Proc.devRef .tc main_v1)) (W (Proc.devRef .tc main_v3)) (W (Proc.devRef .tc main_v10)) := by
  after_results_simp
  rfl

set_option maxRecDepth 8192 in
set_option maxHeartbeats 8000000 in
/-- The second aggregation stretch, the same over 64 features. -/
theorem aggStretch64 (W : Valuation τ sig (Elt Ideal)) :
    StableHlo.after (hostOps3_1 (F := Ideal)) W (Proc.devRef .tc main_v67)
      = agg64 (F := Ideal) (W (Proc.devRef .tc main_v40)) (W (Proc.devRef .tc main_v41)) (W (Proc.devRef .tc main_v1)) (W (Proc.devRef .tc main_v3)) (W (Proc.devRef .tc main_v10)) := by
  after_results_simp
  rfl

/-! ## The values the regions and the gathers leave -/

section Values

variable
  (hf0 : ∀ (V : (c : Dev nD) → (b : Ref sig .tc) → Buf (Elt Ideal) ((c : Thread nD τ).loc b)) (c : Dev nD), (dat0 (F := Ideal) V c).arrAt 2 cfg0.N = Cert.Gcn.mm128 (V c main_arg0) (V c main_arg1))
  (hf1 : ∀ (V : (c : Dev nD) → (b : Ref sig .tc) → Buf (Elt Ideal) ((c : Thread nD τ).loc b)) (c : Dev nD), (dat1 (F := Ideal) V c).arrAt 2 cfg1.N = Cert.Gcn.biasRelu128 (V c main_v38) (V c main_arg2))
  (hf2 : ∀ (V : (c : Dev nD) → (b : Ref sig .tc) → Buf (Elt Ideal) ((c : Thread nD τ).loc b)) (c : Dev nD), (dat2 (F := Ideal) V c).arrAt 2 cfg2.N = Cert.Gcn.mm64 (V c main_v39) (V c main_arg3))
  (hf3 : ∀ (V : (c : Dev nD) → (b : Ref sig .tc) → Buf (Elt Ideal) ((c : Thread nD τ).loc b)) (c : Dev nD), (dat3 (F := Ideal) V c).arrAt 2 cfg3.N = Cert.Gcn.bias64 (V c main_v67) (V c main_arg4))
  (ht128 : ∀ W : Valuation τ sig (Elt Ideal), SrcOk (W (Proc.devRef .tc main_v1)) →
      StableHlo.after (hostOps1 (F := Ideal)) W (Proc.devRef .tc main_v12) = Host.gather gather_S100000x128_S1600000x1_S1600000x128_1_0_n_n_0_1_1128 (W (Proc.devRef .tc main_v11)) (nidx (W (Proc.devRef .tc main_v1))))
  (ht64 : ∀ W : Valuation τ sig (Elt Ideal), SrcOk (W (Proc.devRef .tc main_v1)) →
      StableHlo.after (hostOps3 (F := Ideal)) W (Proc.devRef .tc main_v41) = Host.gather gather_S100000x64_S1600000x1_S1600000x64_1_0_n_n_0_1_164 (W (Proc.devRef .tc main_v40)) (nidx (W (Proc.devRef .tc main_v1))))
  (hsrc : ∀ c : Dev nD, SrcOk (srcOf (m ((c : Thread nD τ).loc main_arg5))))

include hf0 in
theorem W2_v11 (c : Dev nD) : W2 m ρ c (Proc.devRef .tc main_v11) = (Cert.Gcn.mm128 (m ((c : Thread nD τ).loc main_arg0)) (m ((c : Thread nD τ).loc main_arg1))) := by
  refine (W2_arr m ρ c 2).trans ((hf0 (V1 m ρ) c).trans ?_)
  show Cert.Gcn.mm128 (W1 m ρ c (Proc.devRef .tc main_arg0)) (W1 m ρ c (Proc.devRef .tc main_arg1)) = _
  rw [W1_arg0, W1_arg1]

include hf0 in
theorem W3_v11 (c : Dev nD) : W3 m ρ c (Proc.devRef .tc main_v11) = (Cert.Gcn.mm128 (m ((c : Thread nD τ).loc main_arg0)) (m ((c : Thread nD τ).loc main_arg1))) :=
  (show StableHlo.after hostOps1 (W2 m ρ c) (Proc.devRef .tc main_v11) = W2 m ρ c (Proc.devRef .tc main_v11) from keep_through hostOps1).trans (W2_v11 m ρ hf0 c)

include hf0 ht128 hsrc in
theorem W3_v12 (c : Dev nD) : W3 m ρ c (Proc.devRef .tc main_v12) = Host.gather gather_S100000x128_S1600000x1_S1600000x128_1_0_n_n_0_1_1128 (Cert.Gcn.mm128 (m ((c : Thread nD τ).loc main_arg0)) (m ((c : Thread nD τ).loc main_arg1))) (nidx (srcOf (m ((c : Thread nD τ).loc main_arg5)))) := by
  refine (ht128 (W2 m ρ c) ?_).trans ?_
  · rw [W2_v1]; exact hsrc c
  · rw [W2_v11 m ρ hf0, W2_v1]

include hf0 ht128 hsrc in
theorem W4_v38 (c : Dev nD) : W4 m ρ c (Proc.devRef .tc main_v38) = (conv128 (F := Ideal) (Cert.Gcn.mm128 (m ((c : Thread nD τ).loc main_arg0)) (m ((c : Thread nD τ).loc main_arg1))) (srcOf (m ((c : Thread nD τ).loc main_arg5))) (dstOf (m ((c : Thread nD τ).loc main_arg5))) (dinvOf (F := Ideal) (dstOf (m ((c : Thread nD τ).loc main_arg5))))) := by
  refine (aggStretch128 (W3 m ρ c)).trans ?_
  rw [W3_v12 m ρ hf0 ht128 hsrc, W3_v11 m ρ hf0, W3_v1, W3_v3, W3_v10]
  rfl

include hf0 hf1 ht128 hsrc in
theorem W5_v39 (c : Dev nD) : W5 m ρ c (Proc.devRef .tc main_v39) = (Cert.Gcn.biasRelu128 (conv128 (F := Ideal) (Cert.Gcn.mm128 (m ((c : Thread nD τ).loc main_arg0)) (m ((c : Thread nD τ).loc main_arg1))) (srcOf (m ((c : Thread nD τ).loc main_arg5))) (dstOf (m ((c : Thread nD τ).loc main_arg5))) (dinvOf (F := Ideal) (dstOf (m ((c : Thread nD τ).loc main_arg5))))) (m ((c : Thread nD τ).loc main_arg2))) := by
  refine (W5_arr m ρ c 2).trans ((hf1 (V4 m ρ) c).trans ?_)
  show Cert.Gcn.biasRelu128 (W4 m ρ c (Proc.devRef .tc main_v38)) (W4 m ρ c (Proc.devRef .tc main_arg2)) = _
  rw [W4_v38 m ρ hf0 ht128 hsrc, W4_arg2]

include hf0 hf1 hf2 ht128 hsrc in
theorem W6_v40 (c : Dev nD) : W6 m ρ c (Proc.devRef .tc main_v40) = (Cert.Gcn.mm64 (Cert.Gcn.biasRelu128 (conv128 (F := Ideal) (Cert.Gcn.mm128 (m ((c : Thread nD τ).loc main_arg0)) (m ((c : Thread nD τ).loc main_arg1))) (srcOf (m ((c : Thread nD τ).loc main_arg5))) (dstOf (m ((c : Thread nD τ).loc main_arg5))) (dinvOf (F := Ideal) (dstOf (m ((c : Thread nD τ).loc main_arg5))))) (m ((c : Thread nD τ).loc main_arg2))) (m ((c : Thread nD τ).loc main_arg3))) := by
  refine (W6_arr m ρ c 2).trans ((hf2 (V5 m ρ) c).trans ?_)
  show Cert.Gcn.mm64 (W5 m ρ c (Proc.devRef .tc main_v39)) (W5 m ρ c (Proc.devRef .tc main_arg3)) = _
  rw [W5_v39 m ρ hf0 hf1 ht128 hsrc, W5_arg3]

include hf0 hf1 hf2 ht128 hsrc in
theorem W7_v40 (c : Dev nD) : W7 m ρ c (Proc.devRef .tc main_v40) = (Cert.Gcn.mm64 (Cert.Gcn.biasRelu128 (conv128 (F := Ideal) (Cert.Gcn.mm128 (m ((c : Thread nD τ).loc main_arg0)) (m ((c : Thread nD τ).loc main_arg1))) (srcOf (m ((c : Thread nD τ).loc main_arg5))) (dstOf (m ((c : Thread nD τ).loc main_arg5))) (dinvOf (F := Ideal) (dstOf (m ((c : Thread nD τ).loc main_arg5))))) (m ((c : Thread nD τ).loc main_arg2))) (m ((c : Thread nD τ).loc main_arg3))) :=
  (show StableHlo.after hostOps3 (W6 m ρ c) (Proc.devRef .tc main_v40) = W6 m ρ c (Proc.devRef .tc main_v40) from keep_through hostOps3).trans (W6_v40 m ρ hf0 hf1 hf2 ht128 hsrc c)

include hf0 hf1 hf2 ht128 ht64 hsrc in
theorem W7_v41 (c : Dev nD) : W7 m ρ c (Proc.devRef .tc main_v41) = Host.gather gather_S100000x64_S1600000x1_S1600000x64_1_0_n_n_0_1_164 (Cert.Gcn.mm64 (Cert.Gcn.biasRelu128 (conv128 (F := Ideal) (Cert.Gcn.mm128 (m ((c : Thread nD τ).loc main_arg0)) (m ((c : Thread nD τ).loc main_arg1))) (srcOf (m ((c : Thread nD τ).loc main_arg5))) (dstOf (m ((c : Thread nD τ).loc main_arg5))) (dinvOf (F := Ideal) (dstOf (m ((c : Thread nD τ).loc main_arg5))))) (m ((c : Thread nD τ).loc main_arg2))) (m ((c : Thread nD τ).loc main_arg3))) (nidx (srcOf (m ((c : Thread nD τ).loc main_arg5)))) := by
  refine (ht64 (W6 m ρ c) ?_).trans ?_
  · rw [W6_v1]; exact hsrc c
  · rw [W6_v40 m ρ hf0 hf1 hf2 ht128 hsrc, W6_v1]

include hf0 hf1 hf2 ht128 ht64 hsrc in
theorem W8_v67 (c : Dev nD) : W8 m ρ c (Proc.devRef .tc main_v67) = (conv64 (F := Ideal) (Cert.Gcn.mm64 (Cert.Gcn.biasRelu128 (conv128 (F := Ideal) (Cert.Gcn.mm128 (m ((c : Thread nD τ).loc main_arg0)) (m ((c : Thread nD τ).loc main_arg1))) (srcOf (m ((c : Thread nD τ).loc main_arg5))) (dstOf (m ((c : Thread nD τ).loc main_arg5))) (dinvOf (F := Ideal) (dstOf (m ((c : Thread nD τ).loc main_arg5))))) (m ((c : Thread nD τ).loc main_arg2))) (m ((c : Thread nD τ).loc main_arg3))) (srcOf (m ((c : Thread nD τ).loc main_arg5))) (dstOf (m ((c : Thread nD τ).loc main_arg5))) (dinvOf (F := Ideal) (dstOf (m ((c : Thread nD τ).loc main_arg5))))) := by
  refine (aggStretch64 (W7 m ρ c)).trans ?_
  rw [W7_v41 m ρ hf0 hf1 hf2 ht128 ht64 hsrc, W7_v40 m ρ hf0 hf1 hf2 ht128 hsrc, W7_v1, W7_v3, W7_v10]
  rfl

include hf0 hf1 hf2 hf3 ht128 ht64 hsrc in
/-- The result array after the last region: the kernel program's two layers of the launch contents. -/
theorem W9_v68 (c : Dev nD) : W9 m ρ c (Proc.devRef .tc main_v68)
    = kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((hf3 (V8 m ρ) c).trans ?_)
  show Cert.Gcn.bias64 (W8 m ρ c (Proc.devRef .tc main_v67)) (W8 m ρ c (Proc.devRef .tc main_arg4)) = _
  rw [W8_v67 m ρ hf0 hf1 hf2 ht128 ht64 hsrc, W8_arg4]
  rfl

end Values

end Cert.KernelIdeal.Hand

end
-- ==== Proof.RegionsMM.lean ====
/-
  The two matrix-product regions of the idealized kernel program, each as one whole-array function of its two input
  arrays: after the region the output array holds, index by index, a row of the feature matrix against a column of the
  weight matrix summed over the 128 shared coordinates. First one block's product at an index; then the blocks read
  through their windows (block t holds rows 5000·t … 5000·t + 4999, the weight whole at every point); then what each
  point writes back is its block of the whole product; the twenty blocks cover the array.
-/
import proofs.«428287_j9852654977192_1_alg».proof.Proof.Gen.KernelIdeal.Frame
import proofs.«428287_j9852654977192_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.SL.Sem Cert.KernelIdeal Cert.KernelIdeal.Gen
open Idealize.ShloMosaic.ValueIdx
open Idealize.ShloMosaic.Pipeline (Dat)

/-! ## One block's product at an index -/

/-- The left operand's row coordinate is the output's row. -/
theorem lhs_mm128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the summed one. -/
theorem lhs_mm128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the summed one. -/
theorem rhs_mm128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_mm128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000×128 block against the 128×128 weight, at row r and column q: the sum over the shared coordinate. -/
theorem pay_mm128_apply (x0 : Vec Ideal S5000x128 .f32) (x1 : Vec Ideal S128x128 .f32) (r : Fin 5000) (q : Fin 128) :
    k0_pay1 (F := Ideal) x0 x1 (ix2 r q) = ∑ k : Fin 128, x0 (ix2 r k) * x1 (ix2 k q) := by
  unfold k0_pay1
  refine (Ideal.matmul_constant_zero_apply dot_S5000x128_S128x128_S5000x128_1_0_0_1_n_n none (truncf (F := Ideal) .bf16 x0 bitsLt_bf16_f32) (truncf (F := Ideal) .bf16 x1 bitsLt_bf16_f32) (ix2 r q)).trans ?_
  rw [ ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_mm128_0 _ _
    | ⟨1, _⟩ => exact (lhs_mm128_1 _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_mm128_0 _ _).trans hk
    | ⟨1, _⟩ => exact rhs_mm128_1 _ _)
  rw [ValueIdx.truncf_apply, ValueIdx.truncf_apply, el, er]

/-- The left operand's row coordinate is the output's row (64 output columns). -/
theorem lhs_mm64_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the summed one. -/
theorem lhs_mm64_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row coordinate is the summed one. -/
theorem rhs_mm64_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column coordinate is the output's column. -/
theorem rhs_mm64_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A 5000×128 block against the 128×64 weight, at row r and column q: the sum over the shared coordinate (the
    leading cast is to the block's own shape, the identity). -/
theorem pay_mm64_apply (x0 : Vec Ideal S5000x128 .f32) (x1 : Vec Ideal S128x64 .f32) (r : Fin 5000) (q : Fin 64) :
    k2_pay1 (F := Ideal) x0 x1 (ix2 r q) = ∑ k : Fin 128, x0 (ix2 r k) * x1 (ix2 k q) := by
  unfold k2_pay1
  rw [shapeCast_self]
  refine (Ideal.matmul_constant_zero_apply dot_S5000x128_S128x64_S5000x64_1_0_0_1_n_n none (truncf (F := Ideal) .bf16 x0 bitsLt_bf16_f32) (truncf (F := Ideal) .bf16 x1 bitsLt_bf16_f32) (ix2 r q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 r q) ((ValueIdx.contrEquiv1 dot_S5000x128_S128x64_S5000x64_1_0_0_1_n_n 128 rfl rfl).symm k) = ix2 r k := funext fun a => Fin.ext (by
    match a with
    | ⟨0, _⟩ => exact lhs_mm64_0 _ _
    | ⟨1, _⟩ => exact (lhs_mm64_1 _ _).trans hk)
  have er : dot_S5000x128_S128x64_S5000x64_1_0_0_1_n_n.rhsIdx (ix2 r q) ((ValueIdx.contrEquiv1 dot_S5000x128_S128x64_S5000x64_1_0_0_1_n_n 128 rfl rfl).symm k) = ix2 k q := funext fun a => Fin.ext (by
    match a with
    | ⟨0, _⟩ => exact (rhs_mm64_0 _ _).trans hk
    | ⟨1, _⟩ => exact rhs_mm64_1 _ _)
  rw [ValueIdx.truncf_apply, ValueIdx.truncf_apply, el, er]

/-! ## The first product: region 0 -/

section Region0

variable (V : (c : Dev nD) → (b : Ref sig .tc) → Buf (Elt Ideal) ((c : Thread nD τ).loc b))

theorem zeroOffsets : (![0, 0] : Fin 2 → Nat) = fun _ => 0 := funext fun a => by fin_cases a <;> rfl

/-- A block of the features against the whole weight is the block of the whole product: when the block holds rows
    5000·n … 5000·n + 4999 of the array A and the weight block is the array W, its product at (r, q) is the whole
    product at (5000·n + r, q). -/
theorem block_mm128 (x0 : Vec Ideal S5000x128 .f32) (x1 : Vec Ideal S128x128 .f32)
    (A : S100000x128.Idx → EReal) (W : S128x128.Idx → EReal) (n : Nat)
    (h0 : ∀ (x : S5000x128.Idx) (k : S100000x128.Idx), (k 0).val = 5000 * n + (x 0).val → (k 1).val = (x 1).val → x0 x = A k)
    (h1 : ∀ x : S128x128.Idx, x1 x = W x)
    (j : S5000x128.Idx) (i : S100000x128.Idx) (hi0 : (i 0).val = 5000 * n + (j 0).val) (hi1 : (i 1).val = (j 1).val) :
    k0_pay1 (F := Ideal) x0 x1 j = Cert.Gcn.mm128 A W i := by
  obtain ⟨r, q, rfl⟩ : ∃ (r : Fin 5000) (q : Fin 128), j = ix2 r q := ⟨j 0, j 1, eq_ix2 j⟩
  rw [pay_mm128_apply]
  show _ = ∑ k : Fin 128, A (ix2 (n0 := 100000) (n1 := 128) (i 0) k) * W (ix2 (n0 := 128) (n1 := 128) k (i 1))
  refine Finset.sum_congr rfl fun k _ => ?_
  have e : ix2 (n0 := 128) (n1 := 128) k (i 1) = ix2 k q := funext fun a => Fin.ext (by
    match a with
    | ⟨0, _⟩ => rfl
    | ⟨1, _⟩ => exact hi1)
  rw [h0 (ix2 r k) (ix2 (n0 := 100000) (n1 := 128) (i 0) k) hi0 rfl, h1, e]

/-- The printed index maps over the grid: the feature window and the output window sit at block t of the rows, the
    weight window at the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 5000·t … 5000·t + 4999 of the feature array. -/
theorem iblk0_0_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_arg0 : S100000x128.Idx → EReal) k := by
  obtain ⟨e0, e1, -⟩ := idx_facts0 t
  unfold iblk0
  rw [View.read_apply]
  show (V c main_arg0 : S100000x128.Idx → EReal) _ = _
  refine congrArg (V c main_arg0 : S100000x128.Idx → EReal) ?_
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The weight window's block at every point is the weight array. -/
theorem iblk0_1_apply (c : Dev nD) (t : Fin cfg0.N) (x : S128x128.Idx) :
    (iblk0 V c 1 t : Vec Ideal S128x128 .f32) x = (V c main_arg1 : S128x128.Idx → EReal) x := by
  obtain ⟨-, -, e0, e1, -⟩ := idx_facts0 t
  unfold iblk0
  rw [View.read_apply]
  show (V c main_arg1 : S128x128.Idx → EReal) _ = _
  refine congrArg (V c main_arg1 : S128x128.Idx → EReal) ?_
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- What point t writes back is block t of the whole product of the arrays the region finds. -/
theorem flushed0_eq (c : Dev nD) (t : Fin cfg0.N) :
    (dat0 (F := Ideal) V c).flushed 2 t
      = ((cfg0.win 2).blk t).view.read (Elt Ideal) (Cert.Gcn.mm128 (V c main_arg0) (V c main_arg1)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨-, -, -, -, e0, e1⟩ := idx_facts0 t
  funext j
  refine block_mm128 (iblk0 V c 0 t) (iblk0 V c 1 t) (V c main_arg0) (V c main_arg1) t.val
    (fun x k hk0 hk1 => iblk0_0_apply V c t x k hk0 hk1) (fun x => iblk0_1_apply V c t x) j (((cfg0.win 2).blk t).view.emb j) ?_ ?_
  · show win0_2.index t (0 : Fin 2) * 5000 + 1 * (j 0).val = 5000 * t.val + (j 0).val
    rw [e0]; omega
  · show win0_2.index t (1 : Fin 2) * 128 + 1 * (j 1).val = (j 1).val
    rw [e1]; omega

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v11).slice (win0_2.rect t)).set ↔ _
  rw [View.set_slice_whole, Rect.mem_set_unit]
  exact Iff.rfl

/-- Row r of the output lies in the block of point r / 5000, and every point writes back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; rw [hN]; omega⟩
  obtain ⟨-, -, -, -, e0, e1⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 128 ≤ (i 1).val ∧ (i 1).val < win0_2.index t (1 : Fin 2) * 128 + 128; rw [e1]; omega

/-- After region 0 the output array is the product of the feature array and the first weight. -/
theorem final0 (c : Dev nD) :
    (dat0 (F := Ideal) V c).arrAt 2 cfg0.N = Cert.Gcn.mm128 (V c main_arg0) (V c main_arg1) :=
  (dat0 (F := Ideal) V c).arrAt_eq_of_cover 2 (Cert.Gcn.mm128 (V c main_arg0) (V c main_arg1))
    (fun t _ => flushed0_eq V c t) cover0

end Region0

/-! ## The second product: region 2 -/

section Region2

variable (V : (c : Dev nD) → (b : Ref sig .tc) → Buf (Elt Ideal) ((c : Thread nD τ).loc b))

/-- A block of the hidden features against the whole second weight is the block of the whole product: when the block
    holds rows 5000·n … 5000·n + 4999 of the array A and the weight block is the array W, its product at (r, q) is the
    whole product at (5000·n + r, q). -/
theorem block_mm64 (x0 : Vec Ideal S5000x128 .f32) (x1 : Vec Ideal S128x64 .f32)
    (A : S100000x128.Idx → EReal) (W : S128x64.Idx → EReal) (n : Nat)
    (h0 : ∀ (x : S5000x128.Idx) (k : S100000x128.Idx), (k 0).val = 5000 * n + (x 0).val → (k 1).val = (x 1).val → x0 x = A k)
    (h1 : ∀ x : S128x64.Idx, x1 x = W x)
    (j : S5000x64.Idx) (i : S100000x64.Idx) (hi0 : (i 0).val = 5000 * n + (j 0).val) (hi1 : (i 1).val = (j 1).val) :
    k2_pay1 (F := Ideal) x0 x1 j = Cert.Gcn.mm64 A W i := by
  obtain ⟨r, q, rfl⟩ : ∃ (r : Fin 5000) (q : Fin 64), j = ix2 r q := ⟨j 0, j 1, eq_ix2 j⟩
  rw [pay_mm64_apply]
  show _ = ∑ k : Fin 128, A (ix2 (n0 := 100000) (n1 := 128) (i 0) k) * W (ix2 (n0 := 128) (n1 := 64) k (i 1))
  refine Finset.sum_congr rfl fun k _ => ?_
  have e : ix2 (n0 := 128) (n1 := 64) k (i 1) = ix2 k q := funext fun a => Fin.ext (by
    match a with
    | ⟨0, _⟩ => rfl
    | ⟨1, _⟩ => exact hi1)
  rw [h0 (ix2 r k) (ix2 (n0 := 100000) (n1 := 128) (i 0) k) hi0 rfl, h1, e]

/-- The printed index maps over the grid: the hidden-feature window and the output window sit at block t of the
    rows, the weight window at the whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The hidden-feature window's block at point t is rows 5000·t … 5000·t + 4999 of the hidden-feature array. -/
theorem iblk2_0_apply (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c main_v39 : S100000x128.Idx → EReal) k := by
  obtain ⟨e0, e1, -⟩ := idx_facts2 t
  unfold iblk2
  rw [View.read_apply]
  show (V c main_v39 : S100000x128.Idx → EReal) _ = _
  refine congrArg (V c main_v39 : S100000x128.Idx → EReal) ?_
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- The weight window's block at every point is the second weight array. -/
theorem iblk2_1_apply (c : Dev nD) (t : Fin cfg2.N) (x : S128x64.Idx) :
    (iblk2 V c 1 t : Vec Ideal S128x64 .f32) x = (V c main_arg3 : S128x64.Idx → EReal) x := by
  obtain ⟨-, -, e0, e1, -⟩ := idx_facts2 t
  unfold iblk2
  rw [View.read_apply]
  show (V c main_arg3 : S128x64.Idx → EReal) _ = _
  refine congrArg (V c main_arg3 : S128x64.Idx → EReal) ?_
  funext a
  apply Fin.ext
  match a with
  | ⟨0, _⟩ => show win2_1.index t (0 : Fin 2) * 128 + 1 * (x 0).val = (x 0).val; rw [e0]; omega
  | ⟨1, _⟩ => show win2_1.index t (1 : Fin 2) * 64 + 1 * (x 1).val = (x 1).val; rw [e1]; omega

/-- What point t writes back is block t of the whole product of the arrays the region finds. -/
theorem flushed2_eq (c : Dev nD) (t : Fin cfg2.N) :
    (dat2 (F := Ideal) V c).flushed 2 t
      = ((cfg2.win 2).blk t).view.read (Elt Ideal) (Cert.Gcn.mm64 (V c main_v39) (V c main_arg3)) := by
  show (cfg2.win 2).cut (grid2.coords t) ((dat2 V c).after 2 t) = _
  rw [after2_2]
  unfold out2_2
  rw [View.canon_unit_zero zeroOffsets]
  simp only [View.ld_unit_zero (S := S5000x128) zeroOffsets, View.ld_unit_zero (S := S128x64) zeroOffsets]
  obtain ⟨-, -, -, -, e0, e1⟩ := idx_facts2 t
  funext j
  refine block_mm64 (iblk2 V c 0 t) (iblk2 V c 1 t) (V c main_v39) (V c main_arg3) t.val
    (fun x k hk0 hk1 => iblk2_0_apply V c t x k hk0 hk1) (fun x => iblk2_1_apply V c t x) j (((cfg2.win 2).blk t).view.emb j) ?_ ?_
  · show win2_2.index t (0 : Fin 2) * 5000 + 1 * (j 0).val = 5000 * t.val + (j 0).val
    rw [e0]; omega
  · show win2_2.index t (1 : Fin 2) * 64 + 1 * (j 1).val = (j 1).val
    rw [e1]; omega

/-- An index of the output array is in point t's block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v40).slice (win2_2.rect t)).set ↔ _
  rw [View.set_slice_whole, Rect.mem_set_unit]
  exact Iff.rfl

/-- Row r of the output lies in the block of point r / 5000, and every point writes back. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  let t : Fin cfg2.N := ⟨(i 0).val / 5000, by show (i 0).val / 5000 < grid2.N; rw [hN]; omega⟩
  obtain ⟨-, -, -, -, e0, e1⟩ := idx_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e0, ht]; omega
  | ⟨1, _⟩ => show win2_2.index t (1 : Fin 2) * 64 ≤ (i 1).val ∧ (i 1).val < win2_2.index t (1 : Fin 2) * 64 + 64; rw [e1]; omega

/-- After region 2 the output array is the product of the hidden-feature array and the second weight. -/
theorem final2 (c : Dev nD) :
    (dat2 (F := Ideal) V c).arrAt 2 cfg2.N = Cert.Gcn.mm64 (V c main_v39) (V c main_arg3) :=
  (dat2 (F := Ideal) V c).arrAt_eq_of_cover 2 (Cert.Gcn.mm64 (V c main_v39) (V c main_arg3))
    (fun t _ => flushed2_eq V c t) cover2

end Region2

end Cert.KernelIdeal.Hand

end
-- ==== Proof.RegionsPW.lean ====
/-
  The two pointwise regions of the idealized kernel program as whole-array functions over the extended reals.
  Region 1 leaves max(a[r, q] + b[q], 0) and region 3 leaves a[r, q] + b[q] at every index (r, q) of its output array,
  where a is the region's row-blocked input array and b its bias vector, both as the region finds them.
  Per region: one element of the body's payload from the elements of its two loaded blocks; each block as rows
  5000·t … 5000·t + 4999 of its array (the bias vector whole at every point); so what point t writes back is block t of
  the whole-array function; the 20 row blocks cover the array (row r lies in block r / 5000) and every point writes back,
  so the array ends holding that function.
-/
import proofs.«428287_j9852654977192_1_alg».proof.Proof.Gen.KernelIdeal.Frame
import proofs.«428287_j9852654977192_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The zero offsets of a rank-2 whole-block access, as a constant function. -/
theorem hz2 : (![0, 0] : Fin 2 → Nat) = fun _ => 0 := funext fun a => by fin_cases a <;> rfl
/-- The zero offset of a rank-1 whole-block access, as a constant function. -/
theorem hz1 : (![0] : Fin 1 → Nat) = fun _ => 0 := funext fun a => by fin_cases a <;> rfl

/-! ## Region 1: max(a + b, 0) -/

/-- The payload at (r, q): the block's entry plus the bias entry of its column, then the positive part. -/
theorem pay1_apply (x0 : Vec Ideal S5000x128 .f32) (x1 : Vec Ideal S128 .f32) (r : Fin 5000) (q : Fin 128) :
    k1_pay1 x0 x1 (ix2 r q) = max (x0 (ix2 r q) + x1 (ix1 q)) 0 := by
  unfold k1_pay1
  rw [maximumf_apply, addf_apply, broadcast_apply, shapeCast_self, broadcastTo_1b_ab_apply, shapeCast_a_1a_apply]
  show max _ (Ideal.ofBits .f32 0x00000000#32) = _
  rw [Ideal.ofBits_zero_f32]

/-- The same at any index of the block: the bias entry is the one of the index's column. -/
theorem pay1_idx (x0 : Vec Ideal S5000x128 .f32) (x1 : Vec Ideal S128 .f32) (j : S5000x128.Idx) :
    k1_pay1 x0 x1 j = max (x0 j + x1 (ix1 (n := 128) (j 1))) 0 := by
  obtain ⟨r, q, rfl⟩ : ∃ r q, j = ix2 r q := ⟨j 0, j 1, eq_ix2 j⟩
  exact pay1_apply x0 x1 r q

/-- The index maps over the grid: the two row windows' block index is (t, 0), the bias window's is 0. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Window 0's block at point t is rows 5000·t … 5000·t + 4999 of its array. -/
theorem iblk1_0_apply (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v38 : S100000x128.Idx → Elt Ideal .f32) k := by
  obtain ⟨e0, e1, -⟩ := idx_facts1 t
  unfold iblk1
  rw [View.read_apply]
  show V c main_v38 _ = V c main_v38 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- Window 1's block at every point is the whole bias vector. -/
theorem iblk1_1_apply (c : Dev nD) (t : Fin cfg1.N) (x : S128.Idx) (k : S128.Idx)
    (hk0 : (k 0).val = (x 0).val) :
    (iblk1 V c 1 t : Vec Ideal S128 .f32) x = (V c main_arg2 : S128.Idx → Elt Ideal .f32) k := by
  obtain ⟨-, -, e2, -⟩ := idx_facts1 t
  unfold iblk1
  rw [View.read_apply]
  show V c main_arg2 _ = V c main_arg2 _
  congr 1
  funext a
  apply Fin.ext
  match a with
  | ⟨0, _⟩ => show win1_1.index t 0 * 128 + 1 * (x 0).val = (k 0).val; rw [e2, hk0]; omega

/-- One element of the payload of the blocks at point t is max(a + b, 0) at the row 5000·t + r of the arrays. -/
theorem point1 (c : Dev nD) (t : Fin cfg1.N) (j : S5000x128.Idx) (k : S100000x128.Idx)
    (hk0 : (k 0).val = 5000 * t.val + (j 0).val) (hk1 : (k 1).val = (j 1).val) :
    k1_pay1 (iblk1 V c 0 t) (iblk1 V c 1 t) j = Cert.Gcn.biasRelu128 (V c main_v38) (V c main_arg2) k := by
  rw [pay1_idx, iblk1_0_apply V c t j k hk0 hk1,
    iblk1_1_apply V c t (ix1 (n := 128) (j 1)) (ix1 (n := 128) (k 1)) hk1]
  rfl

/-- What point t writes back is block t of max(a + b, 0) of the two arrays. -/
theorem flushed1_eq (c : Dev nD) (t : Fin cfg1.N) :
    (dat1 (F := Ideal) V c).flushed 2 t
      = ((cfg1.win 2).blk t).view.read (Elt Ideal) (Cert.Gcn.biasRelu128 (V c main_v38) (V c main_arg2)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128) hz1]
  obtain ⟨-, -, -, e3, e4⟩ := idx_facts1 t
  funext j
  show k1_pay1 (iblk1 V c 0 t) (iblk1 V c 1 t) j
    = Cert.Gcn.biasRelu128 (V c main_v38) (V c main_arg2) (((cfg1.win 2).blk t).view.emb j)
  refine point1 V c t j _ ?_ ?_
  · show win1_2.index t 0 * 5000 + 1 * (j 0).val = 5000 * t.val + (j 0).val
    rw [e3]; omega
  · show win1_2.index t 1 * 128 + 1 * (j 1).val = (j 1).val
    rw [e4]; omega

/-- An index of the array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v39).slice (win1_2.rect t)).set ↔ _
  rw [View.set_slice_whole, Rect.mem_set_unit]
  exact Iff.rfl

/-- Row r lies in the block of point r / 5000, and every point writes its block back. -/
theorem cover1 (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : cfg1.N = 20 := rfl
  let t : Fin cfg1.N := ⟨(i 0).val / 5000, by rw [hN]; omega⟩
  obtain ⟨-, -, -, e3, e4⟩ := idx_facts1 t
  have ht : t.val = (i 0).val / 5000 := rfl
  refine ⟨t, flush1_2 t, ?_⟩
  rw [mem_blk1]
  intro a
  match a with
  | ⟨0, _⟩ =>
    show win1_2.index t 0 * 5000 ≤ (i 0).val ∧ (i 0).val < win1_2.index t 0 * 5000 + 5000
    rw [e3, ht]; omega
  | ⟨1, _⟩ =>
    show win1_2.index t 1 * 128 ≤ (i 1).val ∧ (i 1).val < win1_2.index t 1 * 128 + 128
    rw [e4]; omega

/-- The array after region 1: max(a + b, 0), whole. -/
theorem final1 (c : Dev nD) :
    (dat1 (F := Ideal) V c).arrAt 2 cfg1.N = Cert.Gcn.biasRelu128 (V c main_v38) (V c main_arg2) :=
  (dat1 (F := Ideal) V c).arrAt_eq_of_cover 2 (Cert.Gcn.biasRelu128 (V c main_v38) (V c main_arg2))
    (fun t _ => flushed1_eq V c t) cover1

/-! ## Region 3: a + b -/

/-- The payload at (r, q): the block's entry plus the bias entry of its column. -/
theorem pay3_apply (x0 : Vec Ideal S5000x64 .f32) (x1 : Vec Ideal S64 .f32) (r : Fin 5000) (q : Fin 64) :
    k3_pay1 x0 x1 (ix2 r q) = x0 (ix2 r q) + x1 (ix1 q) := by
  unfold k3_pay1
  rw [addf_apply, shapeCast_self, broadcastTo_1b_ab_apply, shapeCast_a_1a_apply]

/-- The same at any index of the block: the bias entry is the one of the index's column. -/
theorem pay3_idx (x0 : Vec Ideal S5000x64 .f32) (x1 : Vec Ideal S64 .f32) (j : S5000x64.Idx) :
    k3_pay1 x0 x1 j = x0 j + x1 (ix1 (n := 64) (j 1)) := by
  obtain ⟨r, q, rfl⟩ : ∃ r q, j = ix2 r q := ⟨j 0, j 1, eq_ix2 j⟩
  exact pay3_apply x0 x1 r q

/-- The index maps over the grid: the two row windows' block index is (t, 0), the bias window's is 0. -/
theorem idx_facts3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- Window 0's block at point t is rows 5000·t … 5000·t + 4999 of its array. -/
theorem iblk3_0_apply (c : Dev nD) (t : Fin cfg3.N) (x : S5000x64.Idx) (k : S100000x64.Idx)
    (hk0 : (k 0).val = 5000 * t.val + (x 0).val) (hk1 : (k 1).val = (x 1).val) :
    (iblk3 V c 0 t : Vec Ideal S5000x64 .f32) x = (V c main_v67 : S100000x64.Idx → Elt Ideal .f32) k := by
  obtain ⟨e0, e1, -⟩ := idx_facts3 t
  unfold iblk3
  rw [View.read_apply]
  show V c main_v67 _ = V c main_v67 _
  congr 1
  funext a
  apply Fin.ext
  match a with
  | ⟨0, _⟩ => show win3_0.index t 0 * 5000 + 1 * (x 0).val = (k 0).val; rw [e0, hk0]; omega
  | ⟨1, _⟩ => show win3_0.index t 1 * 64 + 1 * (x 1).val = (k 1).val; rw [e1, hk1]; omega

/-- Window 1's block at every point is the whole bias vector. -/
theorem iblk3_1_apply (c : Dev nD) (t : Fin cfg3.N) (x : S64.Idx) (k : S64.Idx)
    (hk0 : (k 0).val = (x 0).val) :
    (iblk3 V c 1 t : Vec Ideal S64 .f32) x = (V c main_arg4 : S64.Idx → Elt Ideal .f32) k := by
  obtain ⟨-, -, e2, -⟩ := idx_facts3 t
  unfold iblk3
  rw [View.read_apply]
  show V c main_arg4 _ = V c main_arg4 _
  congr 1
  funext a
  apply Fin.ext
  match a with
  | ⟨0, _⟩ => show win3_1.index t 0 * 64 + 1 * (x 0).val = (k 0).val; rw [e2, hk0]; omega

/-- One element of the payload of the blocks at point t is a + b at the row 5000·t + r of the arrays. -/
theorem point3 (c : Dev nD) (t : Fin cfg3.N) (j : S5000x64.Idx) (k : S100000x64.Idx)
    (hk0 : (k 0).val = 5000 * t.val + (j 0).val) (hk1 : (k 1).val = (j 1).val) :
    k3_pay1 (iblk3 V c 0 t) (iblk3 V c 1 t) j = Cert.Gcn.bias64 (V c main_v67) (V c main_arg4) k := by
  rw [pay3_idx, iblk3_0_apply V c t j k hk0 hk1,
    iblk3_1_apply V c t (ix1 (n := 64) (j 1)) (ix1 (n := 64) (k 1)) hk1]
  rfl

/-- What point t writes back is block t of a + b of the two arrays. -/
theorem flushed3_eq (c : Dev nD) (t : Fin cfg3.N) :
    (dat3 (F := Ideal) V c).flushed 2 t
      = ((cfg3.win 2).blk t).view.read (Elt Ideal) (Cert.Gcn.bias64 (V c main_v67) (V c main_arg4)) := by
  show (cfg3.win 2).cut (grid3.coords t) ((dat3 V c).after 2 t) = _
  rw [after3_2]
  unfold out3_2
  rw [View.canon_unit_zero hz2]
  simp only [View.ld_unit_zero (S := S5000x64) hz2, View.ld_unit_zero (S := S64) hz1]
  obtain ⟨-, -, -, e3, e4⟩ := idx_facts3 t
  funext j
  show k3_pay1 (iblk3 V c 0 t) (iblk3 V c 1 t) j
    = Cert.Gcn.bias64 (V c main_v67) (V c main_arg4) (((cfg3.win 2).blk t).view.emb j)
  refine point3 V c t j _ ?_ ?_
  · show win3_2.index t 0 * 5000 + 1 * (j 0).val = 5000 * t.val + (j 0).val
    rw [e3]; omega
  · show win3_2.index t 1 * 64 + 1 * (j 1).val = (j 1).val
    rw [e4]; omega

/-- An index of the array is in point t's block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v68).slice (win3_2.rect t)).set ↔ _
  rw [View.set_slice_whole, Rect.mem_set_unit]
  exact Iff.rfl

/-- Row r lies in the block of point r / 5000, and every point writes its block back. -/
theorem cover3 (i : S100000x64.Idx) :
    ∃ t : Fin cfg3.N, (cfg3.win 2).flush t = true ∧ i ∈ ((cfg3.win 2).blk t).view.set := by
  have hi0 : (i 0).val < 100000 := idx2_lt0 i
  have hi1 : (i 1).val < 64 := idx2_lt1 i
  have hN : cfg3.N = 20 := rfl
  let t : Fin cfg3.N := ⟨(i 0).val / 5000, by rw [hN]; omega⟩
  obtain ⟨-, -, -, e3, e4⟩ := idx_facts3 t
  have ht : t.val = (i 0).val / 5000 := rfl
  refine ⟨t, flush3_2 t, ?_⟩
  rw [mem_blk3]
  intro a
  match a with
  | ⟨0, _⟩ =>
    show win3_2.index t 0 * 5000 ≤ (i 0).val ∧ (i 0).val < win3_2.index t 0 * 5000 + 5000
    rw [e3, ht]; omega
  | ⟨1, _⟩ =>
    show win3_2.index t 1 * 64 ≤ (i 1).val ∧ (i 1).val < win3_2.index t 1 * 64 + 64
    rw [e4]; omega

/-- The array after region 3: a + b, whole. -/
theorem final3 (c : Dev nD) :
    (dat3 (F := Ideal) V c).arrAt 2 cfg3.N = Cert.Gcn.bias64 (V c main_v67) (V c main_arg4) :=
  (dat3 (F := Ideal) V c).arrAt_eq_of_cover 2 (Cert.Gcn.bias64 (V c main_v67) (V c main_arg4))
    (fun t _ => flushed3_eq V c t) cover3

end Cert.KernelIdeal.Hand
end
-- ==== Proof.Take.lean ====
/-
  The row gather of the kernel program (jnp.take along axis 0, printed as 23 host operations: the index vector wrapped
  at negative entries and made a column, a mask of the rows whose index lies in [0, 100000), the gather, and a select
  of the gathered rows under the mask against NaN), at the ideal instance. Under the range 0 ≤ s e < 100000 of every
  source index the mask is all ones and the take is the plain gather at the wrapped index; the range itself is read out
  of the precondition, whose last two conjuncts state it of row 0 of the edge list.
-/
import proofs.«428287_j9852654977192_1_alg».proof.Defs
import proofs.«428287_j9852654977192_1_alg».proof.Proof.Gen.KernelIdeal.Launch
import proofs.«428287_j9852654977192_1_alg».proof.Proof.Gen.Pre_finite_inputs
import proofs.«428287_j9852654977192_1_alg».proof.Proof.KLayer
import Idealize.ShloMosaic.Lib.StableHlo.Run
import Idealize.ShloMosaic.Lib.StableHlo.Predicate
import Idealize.ShloMosaic.Lib.ReduceAll

-- a buffer's type is read off the signature's table of 152 references: the lookup recurses past the default depth
set_option maxRecDepth 4096

noncomputable section

namespace Cert.KernelIdeal.Hand

open Idealize.ShloMosaic Idealize.ShloMosaic.TcCoe Idealize.SL.Sem Cert.KernelIdeal Cert.KernelIdeal.Gen

/-! ## Typed references -/

/-- Contents carried to a typed reference's buffer and back are the contents. -/
theorem ofBuf_toBuf {sg : RefSig} {Val : EltTy → Type} {T : BufTy} (x : StableHlo.TRef sg T) (v : T.Contents Val) :
    x.ofBuf (x.toBuf v) = v := by
  obtain ⟨r, rfl, _, _⟩ := x
  rfl

/-! ## Words -/

/-- A word in [0, 100000), read signed, is not negative, so it is its own normalised index, and it passes
    both bounds checks of the gather's mask. -/
theorem word_ok (x : BitVec 32) (h0 : 0 ≤ x.toInt) (h1 : x.toInt < 100000) :
    Scalar.select (IntOp.cmpi .slt x 0#32) (IntOp.addi x 100000#32) x = x
      ∧ IntOp.cmpi .sge x 0#32 = 1#1 ∧ IntOp.cmpi .sle x 99999#32 = 1#1 := by
  have z : (0#32 : BitVec 32).toInt = 0 := by decide
  have n : (99999#32 : BitVec 32).toInt = 99999 := by decide
  refine ⟨?_, ?_, ?_⟩
  · have hn : ¬ IntOp.cmpi .slt x 0#32 = 1#1 := by rw [IntOp.cmpi_slt, z]; omega
    unfold Scalar.select; exact if_neg hn
  · rw [IntOp.cmpi_sge, z]; exact h0
  · rw [IntOp.cmpi_sle, n]; omega

/-! ## A conjunction of ones -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_one f l (fun n hn => h n (List.mem_cons_of_mem _ hn))

/-- A reduction by `and` from 1 of an array of ones is 1 at every result index. -/
theorem reduce_andi_one {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl, hi]
  exact foldl_andi_one x _ (fun i _ => hx i)

/-- A select under a mask of ones is its first branch. -/
theorem select_of_ones {S : Shape} {α : Type} (m : IVec S 1) (a b : S.Idx → α) (hm : ∀ i, m i = 1#1) : select m a b = a := by
  funext i
  show Scalar.select (m i) (a i) (b i) = a i
  rw [hm i]; unfold Scalar.select; exact if_pos rfl

/-! ## The mask -/

/-- The normalised index at a row is the normalisation of one source entry. -/
theorem nidx_apply (s : IVec S1600000 32) (k : S1600000x1.Idx) :
    ∃ e : S1600000.Idx, nidx s k = Scalar.select (IntOp.cmpi .slt (s e) 0#32) (IntOp.addi (s e) 100000#32) (s e) :=
  ⟨_, rfl⟩

/-- Under the range the normalised index is the source entry itself. -/
theorem nidx_eq (s : IVec S1600000 32) (h : SrcOk s) (k : S1600000x1.Idx) : ∃ e : S1600000.Idx, nidx s k = s e := by
  obtain ⟨e, he⟩ := nidx_apply s k
  exact ⟨e, he.trans (word_ok (s e) (h e).1 (h e).2).1⟩

/-- The mask of the gather: both bounds checks of every row, conjoined over the unit axis. -/
def mask (idx : IVec S1600000x1 32) : IVec S1600000 1 :=
  Host.reduce IntOp.andi
    (andi (cmpi .sge idx (broadcastInDim S1600000x1 ![] bcast_S_S1600000x1 (constantI S_ 32 0#32)))
          (cmpi .sle idx (broadcastInDim S1600000x1 ![0, 1] bcast_S1x1_S1600000x1_0_1
            (broadcastInDim S1x1 ![1] bcast_S1_S1x1_1 (constantI S1 32 99999#32)))))
    (constantI S_ 1 1#1) reducesTo_S1600000x1_S1600000_d1 h_S_

/-- Under the range the mask is all ones. -/
theorem mask_one (s : IVec S1600000 32) (h : SrcOk s) (j : S1600000.Idx) : mask (nidx s) j = 1#1 := by
  unfold mask
  refine reduce_andi_one _ _ _ _ rfl (fun k => ?_) j
  show IntOp.andi (IntOp.cmpi .sge (nidx s k) 0#32) (IntOp.cmpi .sle (nidx s k) 99999#32) = 1#1
  obtain ⟨e, he⟩ := nidx_eq s h k
  obtain ⟨-, b, c⟩ := word_ok (s e) (h e).1 (h e).2
  rw [he, b, c]; decide

/-- The mask broadcast along the columns is all ones too. -/
theorem mask_bcast (s : IVec S1600000 32) (h : SrcOk s) (t : Shape) (dims : Fin S1600000.rank → Fin t.rank)
    (hb : S1600000.BroadcastsInDim t dims) (i : t.Idx) : broadcastInDim t dims hb (mask (nidx s)) i = 1#1 := by
  unfold broadcastInDim
  exact mask_one s h _

/-! ## The take is the gather -/

/-- jnp.take of the 128-column table at the source indices, under the range: the gather at the wrapped index. -/
theorem take128 (W : Valuation τ sig (Elt Ideal)) (h : SrcOk (W (Proc.devRef .tc main_v1))) :
    StableHlo.after (hostOps1 (F := Ideal)) W (Proc.devRef .tc main_v12)
      = Host.gather gather_S100000x128_S1600000x1_S1600000x128_1_0_n_n_0_1_1128 (W (Proc.devRef .tc main_v11)) (nidx (W (Proc.devRef .tc main_v1))) := by
  have e1 : (StableHlo.TRef.of main_v1 : StableHlo.TRef sig ⟨S1600000, .i32⟩).ofBuf (W (Proc.devRef .tc main_v1))
      = W (Proc.devRef .tc main_v1) := rfl
  have e2 : (StableHlo.TRef.of main_v11 : StableHlo.TRef sig ⟨S100000x128, .f32⟩).ofBuf (W (Proc.devRef .tc main_v11))
      = W (Proc.devRef .tc main_v11) := rfl
  have e3 : ∀ Y : FVec Ideal S1600000x128 .f32,
      StableHlo.TRef.toBuf (Val := Elt Ideal) (StableHlo.TRef.of main_v12 : StableHlo.TRef sig ⟨S1600000x128, .f32⟩) Y = Y := fun Y => rfl
  after_results_simp
  simp only [ofBuf_toBuf, e1, e2, e3]
  exact select_of_ones (S := S1600000x128) (α := Ideal .f32) _ _ _ (fun i => mask_bcast _ h _ _ _ i)

/-- jnp.take of the 64-column table at the source indices, under the range: the gather at the wrapped index. -/
theorem take64 (W : Valuation τ sig (Elt Ideal)) (h : SrcOk (W (Proc.devRef .tc main_v1))) :
    StableHlo.after (hostOps3 (F := Ideal)) W (Proc.devRef .tc main_v41)
      = Host.gather gather_S100000x64_S1600000x1_S1600000x64_1_0_n_n_0_1_164 (W (Proc.devRef .tc main_v40)) (nidx (W (Proc.devRef .tc main_v1))) := by
  have e1 : (StableHlo.TRef.of main_v1 : StableHlo.TRef sig ⟨S1600000, .i32⟩).ofBuf (W (Proc.devRef .tc main_v1))
      = W (Proc.devRef .tc main_v1) := rfl
  have e2 : (StableHlo.TRef.of main_v40 : StableHlo.TRef sig ⟨S100000x64, .f32⟩).ofBuf (W (Proc.devRef .tc main_v40))
      = W (Proc.devRef .tc main_v40) := rfl
  have e3 : ∀ Y : FVec Ideal S1600000x64 .f32,
      StableHlo.TRef.toBuf (Val := Elt Ideal) (StableHlo.TRef.of main_v41 : StableHlo.TRef sig ⟨S1600000x64, .f32⟩) Y = Y := fun Y => rfl
  after_results_simp
  simp only [ofBuf_toBuf, e1, e2, e3]
  exact select_of_ones (S := S1600000x64) (α := Ideal .f32) _ _ _ (fun i => mask_bcast _ h _ _ _ i)

/-! ## The range, out of the precondition -/

/-- The rank-0 shape has one index. -/
instance : Subsingleton Cert.Pre_finite_inputs.S_.Idx := ⟨fun a b => funext fun d => d.elim0⟩

/-- The precondition's last two conjuncts, read at an edge: row 0 of the edge list is in [0, 100000). -/
theorem srcOk_of_pre (m : (ℓ : Loc nD τ sig) → Buf (Elt Ideal) ℓ) (hpre : Cert.Pre_KernelIdeal m) (c : Dev nD) :
    SrcOk (shapeCast S1600000 (extractStridedSlice S1x1600000 ![0, 0] (m ((c.tc : Thread nD τ).loc main_arg5)) slices_S2x1600000_S1x1600000_0_0) shapeCasts_S1x1600000_S1600000) := by
  have e := congrFun (hpre c) (Shape.Idx.first Cert.Pre_finite_inputs.Gen.h_S_)
  simp only [Cert.Pre_finite_inputs.fn, Cert.Pre_finite_inputs.fn_part1, Cert.Pre_finite_inputs.fn_part2, andi, IntOp.andi_eq_one] at e
  obtain ⟨⟨-, h0⟩, h1⟩ := e
  have z : (0#32 : BitVec 32).toInt = 0 := by decide
  have n : (100000#32 : BitVec 32).toInt = 100000 := by decide
  unfold SrcOk
  intro i
  have a := Host.reduce_andi_all _ _ _ _ _ h0 i
  have b := Host.reduce_andi_all _ _ _ _ _ h1 i
  exact ⟨le_trans (le_of_eq z.symm) (IntOp.cmpi_sge.mp a), lt_of_lt_of_eq (IntOp.cmpi_slt.mp b) n⟩

end Cert.KernelIdeal.Hand

end
-- ==== Proof.RLayer.lean ====
/-
  The graph-side terms of the convolution in the reference program's own operations (the same text as the kernel
  program's: the two programs print these operations alike), and the reference's result as two convolutions around
  the two dense layers.
-/
import proofs.«428287_j9852654977192_1_alg».proof.ReferenceIdeal
import proofs.«428287_j9852654977192_1_alg».proof.Proof.Gen.ReferenceIdeal
import proofs.«428287_j9852654977192_1_alg».proof.Proof.Gen.ReferenceIdeal.Run

noncomputable section

namespace Cert.ReferenceIdeal.Hand

open Idealize.ShloMosaic Idealize.ShloMosaic.TcCoe Idealize.SL.Sem Cert.ReferenceIdeal Cert.ReferenceIdeal.Facts Cert.ReferenceIdeal.Facts₀

variable {F : FTy → Type} [FloatOps F]

/-- Row 0 of the edge list: the source node of every edge. -/
def srcOf (ei : IVec S2x1600000 32) : IVec S1600000 32 :=
  shapeCast S1600000 (extractStridedSlice S1x1600000 ![0, 0] ei slices_S2x1600000_S1x1600000_0_0) shapeCasts_S1x1600000_S1600000

/-- Row 1 of the edge list: the target node of every edge. -/
def dstOf (ei : IVec S2x1600000 32) : IVec S1600000 32 :=
  shapeCast S1600000 (extractStridedSlice S1x1600000 ![1, 0] ei slices_S2x1600000_S1x1600000_1_0) shapeCasts_S1x1600000_S1600000

/-- deg⁻¹ᐟ², where deg counts the edges into a node and its self loop. -/
def dinvOf (dst : IVec S1600000 32) : FVec F S100000 .f32 :=
  Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- An index vector as the column a row gather reads, a negative entry wrapped by the axis length. -/
def nidx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The edge weight dinv[src] · dinv[dst], as a column. -/
def normOf (dinv : FVec F S100000 .f32) (src dst : IVec S1600000 32) : FVec F S1600000x1 .f32 :=
  broadcastInDim S1600000x1 ![0] bcast_S1600000_S1600000x1_0
    (mulf (Host.gather gather_S100000_S1600000x1_S1600000_n_0_n_n_0_1_1 dinv (nidx src))
          (Host.gather gather_S100000_S1600000x1_S1600000_n_0_n_n_0_1_1 dinv (nidx dst)))

/-- The self-loop weight dinv², as a column. -/
def selfOf (dinv : FVec F S100000 .f32) : FVec F S100000x1 .f32 :=
  broadcastInDim S100000x1 ![0] bcast_S100000_S100000x1_0 (mulf dinv dinv)

/-- One aggregation over 128 features from the gathered rows G: the weighted rows summed into their targets, plus the
    self-loop term. -/
def agg128 (H : FVec F S100000x128 .f32) (G : FVec F S1600000x128 .f32) (src dst : IVec S1600000 32) (dinv : FVec F S100000 .f32) :
    FVec F S100000x128 .f32 :=
  addf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (mulf G (broadcastInDim S1600000x128 ![0, 1] bcast_S1600000x1_S1600000x128_0_1 (normOf dinv src dst))))
    (mulf H (broadcastInDim S100000x128 ![0, 1] bcast_S100000x1_S100000x128_0_1 (selfOf dinv)))

/-- The same over 64 features. -/
def agg64 (H : FVec F S100000x64 .f32) (G : FVec F S1600000x64 .f32) (src dst : IVec S1600000 32) (dinv : FVec F S100000 .f32) :
    FVec F S100000x64 .f32 :=
  addf (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (mulf G (broadcastInDim S1600000x64 ![0, 1] bcast_S1600000x1_S1600000x64_0_1 (normOf dinv src dst))))
    (mulf H (broadcastInDim S100000x64 ![0, 1] bcast_S100000x1_S100000x64_0_1 (selfOf dinv)))

/-- The graph convolution of H: its rows gathered at the edges' sources, then aggregated. -/
def conv128 (H : FVec F S100000x128 .f32) (src dst : IVec S1600000 32) (dinv : FVec F S100000 .f32) : FVec F S100000x128 .f32 :=
  agg128 H (Host.gather gather_S100000x128_S1600000x1_S1600000x128_1_0_n_n_0_1_1128 H (nidx src)) src dst dinv

def conv64 (H : FVec F S100000x64 .f32) (src dst : IVec S1600000 32) (dinv : FVec F S100000 .f32) : FVec F S100000x64 .f32 :=
  agg64 H (Host.gather gather_S100000x64_S1600000x1_S1600000x64_1_0_n_n_0_1_164 H (nidx src)) src dst dinv

/-- The reference's two layers over its six arguments: the first dense layer, convolved, biased and cut at zero; the
    second dense layer, convolved and biased. -/
def out (x : FVec F S100000x128 .f32) (w1 : FVec F S128x128 .f32) (b1 : FVec F S128 .f32) (w2 : FVec F S128x64 .f32) (b2 : FVec F S64 .f32)
    (ei : IVec S2x1600000 32) : FVec F S100000x64 .f32 :=
  addf (conv64 (Host.dotGeneral dot_S100000x128_S128x64_S100000x64_1_0_0_1_n_n none
      (maximumf (addf (conv128 (Host.dotGeneral dot_S100000x128_S128x128_S100000x128_1_0_0_1_n_n none x w1) (srcOf ei) (dstOf ei) (dinvOf (dstOf ei)))
          (broadcastInDim S100000x128 ![0, 1] bcast_S1x128_S100000x128_0_1 (broadcastInDim S1x128 ![1] bcast_S128_S1x128_1 b1)))
        (broadcastInDim S100000x128 ![] bcast_S_S100000x128 (constant S_ .f32 0x00000000#32))) w2)
      (srcOf ei) (dstOf ei) (dinvOf (dstOf ei)))
    (broadcastInDim S100000x64 ![0, 1] bcast_S1x64_S100000x64_0_1 (broadcastInDim S1x64 ![1] bcast_S64_S1x64_1 b2))

set_option maxRecDepth 8192 in
/-- The run's composed result term is that function of the launch contents of the arguments. -/
theorem res_eq (m : (ℓ : Loc nD τ sig) → Buf (Elt F) ℓ) (c : Dev nD) :
    Cert.ReferenceIdeal.Value.res_main_v92 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v92 out conv64 conv128 agg64 agg128 normOf selfOf nidx dinvOf srcOf dstOf
  rfl

end Cert.ReferenceIdeal.Hand

end
-- ==== Proof.RefOps.lean ====
/-
  Four operations of the reference program, each read as a whole-array function over the extended reals and
  identified with its textbook form: the two matrix products as sums over the 128 shared coordinates, the bias row
  added to every row followed by the positive part, and the bias row added to every row.
-/
import proofs.«428287_j9852654977192_1_alg».proof.Proof.Gen.ReferenceIdeal.Read
import proofs.«428287_j9852654977192_1_alg».proof.Proof.Spec
import Idealize.ShloMosaic.Lib.Pipeline.Value
import Idealize.ShloMosaic.Lib.ValueIdx
import Idealize.ShloMosaic.PureOps.Ideal.Laws

noncomputable section

namespace Cert.ReferenceIdeal.Hand

open Idealize.ShloMosaic Cert.ReferenceIdeal Cert.ReferenceIdeal.Facts₀ Idealize.ShloMosaic.ValueIdx

/-- (x · w)[r, c] = Σₖ x[r, k] · w[k, c], 128 output columns: the product's element is the sum over the one
    contracted coordinate, and the operand indices it names are (r, k) and (k, c). -/
theorem dot128_eq (x : FVec Ideal S100000x128 .f32) (w : FVec Ideal S128x128 .f32) :
    Host.dotGeneral dot_S100000x128_S128x128_S100000x128_1_0_0_1_n_n none x w = Cert.Gcn.mm128 x w := by
  funext i
  refine (Read.val_main_v4_apply x w i).trans ?_
  unfold Cert.Gcn.mm128
  refine Finset.sum_congr rfl fun k _ => ?_
  have el : Read.lidx_main_v4 i k = ix2 (n0 := 100000) (n1 := 128) (i 0) k :=
    funext fun a => match a with
      | ⟨0, _⟩ => rfl
      | ⟨1, _⟩ => rfl
  have er : Read.ridx_main_v4 i k = ix2 (n0 := 128) (n1 := 128) k (i 1) :=
    funext fun a => match a with
      | ⟨0, _⟩ => rfl
      | ⟨1, _⟩ => rfl
  rw [el, er]

/-- The 64-column product's element as the sum over the contracted coordinate, for any left operand. -/
theorem dot64_apply (x : FVec Ideal S100000x128 .f32) (w : FVec Ideal S128x64 .f32) (i : S100000x64.Idx) :
    Host.dotGeneral dot_S100000x128_S128x64_S100000x64_1_0_0_1_n_n none x w i
      = ∑ k : Fin 128, x (Read.lidx_main_v49 i k) * w (Read.ridx_main_v49 i k) := by
  simp only [Host.dotGeneral]
  rw [Ideal.dotGeneral_apply,
    ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx i
      ((contrEquiv1 dot_S100000x128_S128x64_S100000x64_1_0_0_1_n_n 128 rfl rfl).symm k) = Read.lidx_main_v49 i k :=
    funext fun a => Fin.ext (by
      match a with
      | ⟨0, _⟩ => exact Read.lhs_main_v49_0 _ _
      | ⟨1, _⟩ => exact (Read.lhs_main_v49_1 _ _).trans hk)
  have er : dot_S100000x128_S128x64_S100000x64_1_0_0_1_n_n.rhsIdx i
      ((contrEquiv1 dot_S100000x128_S128x64_S100000x64_1_0_0_1_n_n 128 rfl rfl).symm k) = Read.ridx_main_v49 i k :=
    funext fun a => Fin.ext (by
      match a with
      | ⟨0, _⟩ => exact (Read.rhs_main_v49_0 _ _).trans hk
      | ⟨1, _⟩ => exact Read.rhs_main_v49_1 _ _)
  rw [el, er]

/-- (x · w)[r, c] = Σₖ x[r, k] · w[k, c], 64 output columns. -/
theorem dot64_eq (x : FVec Ideal S100000x128 .f32) (w : FVec Ideal S128x64 .f32) :
    Host.dotGeneral dot_S100000x128_S128x64_S100000x64_1_0_0_1_n_n none x w = Cert.Gcn.mm64 x w := by
  funext i
  refine (dot64_apply x w i).trans ?_
  unfold Cert.Gcn.mm64
  refine Finset.sum_congr rfl fun k _ => ?_
  have el : Read.lidx_main_v49 i k = ix2 (n0 := 100000) (n1 := 128) (i 0) k :=
    funext fun a => match a with
      | ⟨0, _⟩ => rfl
      | ⟨1, _⟩ => rfl
  have er : Read.ridx_main_v49 i k = ix2 (n0 := 128) (n1 := 64) k (i 1) :=
    funext fun a => match a with
      | ⟨0, _⟩ => rfl
      | ⟨1, _⟩ => rfl
  rw [el, er]

/-- A 128-vector laid out as one row and repeated down 100000 rows reads, at (r, c), the vector at c. -/
theorem bcastRow128_apply (b : FVec Ideal S128 .f32) (i : S100000x128.Idx) :
    broadcastInDim S100000x128 ![0, 1] bcast_S1x128_S100000x128_0_1
      (broadcastInDim S1x128 ![1] bcast_S128_S1x128_1 b) i = b (ix1 (n := 128) (i 1)) := by
  refine (Read.val_main_v46_apply (F := Ideal) b i).trans ?_
  refine (Read.val_main_v45_apply (F := Ideal) b (Read.idx_main_v46 i)).trans ?_
  refine congrArg b (funext fun a => ?_)
  match a with
  | ⟨0, _⟩ => rfl

/-- A 64-vector laid out as one row and repeated down 100000 rows reads, at (r, c), the vector at c. -/
theorem bcastRow64_apply (b : FVec Ideal S64 .f32) (i : S100000x64.Idx) :
    broadcastInDim S100000x64 ![0, 1] bcast_S1x64_S100000x64_0_1
      (broadcastInDim S1x64 ![1] bcast_S64_S1x64_1 b) i = b (ix1 (n := 64) (i 1)) := by
  refine (Read.val_main_v91_apply (F := Ideal) b i).trans ?_
  refine (Read.val_main_v90_apply (F := Ideal) b (Read.idx_main_v91 i)).trans ?_
  refine congrArg b (funext fun a => ?_)
  match a with
  | ⟨0, _⟩ => rfl

/-- The zero scalar spread over the whole array is zero at every index. -/
theorem bcastZero_apply (i : S100000x128.Idx) :
    broadcastInDim S100000x128 ![] bcast_S_S100000x128 (constant (F := Ideal) S_ .f32 0x00000000#32) i = 0 := by
  refine (Read.val_main_call0_v0_apply (F := Ideal) i).trans ?_
  refine (Read.val_main_call0_cst_apply (F := Ideal) _).trans ?_
  rw [Ideal.ofBits_def, Ideal.ofBits_zero_f32]

/-- max(a[r, c] + b[c], 0). -/
theorem biasRelu_eq (a : FVec Ideal S100000x128 .f32) (b : FVec Ideal S128 .f32) :
    maximumf (addf a (broadcastInDim S100000x128 ![0, 1] bcast_S1x128_S100000x128_0_1 (broadcastInDim S1x128 ![1] bcast_S128_S1x128_1 b)))
             (broadcastInDim S100000x128 ![] bcast_S_S100000x128 (constant S_ .f32 0x00000000#32)) = Cert.Gcn.biasRelu128 a b := by
  funext i
  rw [maximumf_apply, addf_apply, bcastRow128_apply, bcastZero_apply]
  rfl

/-- a[r, c] + b[c]. -/
theorem bias_eq (a : FVec Ideal S100000x64 .f32) (b : FVec Ideal S64 .f32) :
    addf a (broadcastInDim S100000x64 ![0, 1] bcast_S1x64_S100000x64_0_1 (broadcastInDim S1x64 ![1] bcast_S64_S1x64_1 b)) = Cert.Gcn.bias64 a b := by
  funext i
  rw [addf_apply, bcastRow64_apply]
  rfl

end Cert.ReferenceIdeal.Hand

end
-- ==== Proof.Bridge.lean ====
/-
  The two programs print the graph-side operations alike: each term of the convolution in the kernel program's
  operations is the same term in the reference program's, over the same arrays.
-/
import proofs.«428287_j9852654977192_1_alg».proof.Proof.KLayer
import proofs.«428287_j9852654977192_1_alg».proof.Proof.RLayer
import Idealize.ShloMosaic.PureOps.Ideal

noncomputable section

namespace Cert.Proof.Bridge

open Idealize.ShloMosaic

theorem srcOf_eq (ei : IVec Cert.KernelIdeal.S2x1600000 32) :
    Cert.KernelIdeal.Hand.srcOf ei = Cert.ReferenceIdeal.Hand.srcOf ei := rfl

theorem dstOf_eq (ei : IVec Cert.KernelIdeal.S2x1600000 32) :
    Cert.KernelIdeal.Hand.dstOf ei = Cert.ReferenceIdeal.Hand.dstOf ei := rfl

theorem dinvOf_eq (dst : IVec Cert.KernelIdeal.S1600000 32) :
    Cert.KernelIdeal.Hand.dinvOf (F := Ideal) dst = Cert.ReferenceIdeal.Hand.dinvOf (F := Ideal) dst := rfl

theorem conv128_eq (H : FVec Ideal Cert.KernelIdeal.S100000x128 .f32) (src dst : IVec Cert.KernelIdeal.S1600000 32)
    (dinv : FVec Ideal Cert.KernelIdeal.S100000 .f32) :
    Cert.KernelIdeal.Hand.conv128 (F := Ideal) H src dst dinv = Cert.ReferenceIdeal.Hand.conv128 (F := Ideal) H src dst dinv := rfl

theorem conv64_eq (H : FVec Ideal Cert.KernelIdeal.S100000x64 .f32) (src dst : IVec Cert.KernelIdeal.S1600000 32)
    (dinv : FVec Ideal Cert.KernelIdeal.S100000 .f32) :
    Cert.KernelIdeal.Hand.conv64 (F := Ideal) H src dst dinv = Cert.ReferenceIdeal.Hand.conv64 (F := Ideal) H src dst dinv := rfl

end Cert.Proof.Bridge

end
-- ==== Proof.lean ====
/-
  Two layers of a graph convolution network, computed by four tiled kernels with the irregular gather and scatter
  steps between them on the host, against the plain array program.  Over the extended reals a change of float format
  is the identity, so each matmul kernel is the matrix product of whole arrays and each elementwise kernel adds the
  bias row (and cuts at zero); the kernel program gathers rows with a fill for indices outside the node axis, which
  under the stated index range is the plain gather the reference uses.  Both results are then the same two
  convolutions around the same two dense layers, over arguments that agree.
-/
import proofs.«428287_j9852654977192_1_alg».proof.Defs
import proofs.«428287_j9852654977192_1_alg».proof.Proof.Gen.Kernel.Frame
import proofs.«428287_j9852654977192_1_alg».proof.Proof.Gen.KernelIdeal.Frame
import proofs.«428287_j9852654977192_1_alg».proof.Proof.Gen.ReferenceIdeal.Run
import proofs.«428287_j9852654977192_1_alg».proof.Proof.Gen.Pre_finite_inputs
import proofs.«428287_j9852654977192_1_alg».proof.Proof.KRun
import proofs.«428287_j9852654977192_1_alg».proof.Proof.Chain
import proofs.«428287_j9852654977192_1_alg».proof.Proof.RegionsMM
import proofs.«428287_j9852654977192_1_alg».proof.Proof.RegionsPW
import proofs.«428287_j9852654977192_1_alg».proof.Proof.Take
import proofs.«428287_j9852654977192_1_alg».proof.Proof.RLayer
import proofs.«428287_j9852654977192_1_alg».proof.Proof.RefOps
import proofs.«428287_j9852654977192_1_alg».proof.Proof.Bridge

noncomputable section

namespace Cert.Proof

open Idealize.ShloMosaic Idealize.ShloMosaic.TcCoe Idealize.SL.Sem

/-- The kernel program's two layers are the reference's: the dense layers and the bias steps are the same whole-array
    functions, and the graph-side terms are printed alike. -/
theorem kout_eq_out (x : FVec Ideal Cert.KernelIdeal.S100000x128 .f32) (w1 : FVec Ideal Cert.KernelIdeal.S128x128 .f32)
    (b1 : FVec Ideal Cert.KernelIdeal.S128 .f32) (w2 : FVec Ideal Cert.KernelIdeal.S128x64 .f32) (b2 : FVec Ideal Cert.KernelIdeal.S64 .f32)
    (ei : IVec Cert.KernelIdeal.S2x1600000 32) :
    Cert.ReferenceIdeal.Hand.out (F := Ideal) x w1 b1 w2 b2 ei = Cert.KernelIdeal.Hand.kout x w1 b1 w2 b2 ei := by
  unfold Cert.ReferenceIdeal.Hand.out Cert.KernelIdeal.Hand.kout
  rw [Cert.ReferenceIdeal.Hand.bias_eq, Cert.ReferenceIdeal.Hand.dot64_eq, Cert.ReferenceIdeal.Hand.biasRelu_eq,
    Cert.ReferenceIdeal.Hand.dot128_eq]
  rw [Bridge.conv128_eq, Bridge.conv64_eq, Bridge.srcOf_eq, Bridge.dstOf_eq, Bridge.dinvOf_eq]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the same result array: the kernel program's read back through its segments, the
    reference's from its run, of arguments that agree. -/
theorem algebraic : Cert.algebraic_KernelIdeal_ReferenceIdeal := by
  intro m ρ m' ρ' hpre hagree
  refine ⟨fun c => Cert.KernelIdeal.Hand.kout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.W9_v68 m ρ Cert.KernelIdeal.Hand.final0 Cert.KernelIdeal.Hand.final1
          Cert.KernelIdeal.Hand.final2 Cert.KernelIdeal.Hand.final3 Cert.KernelIdeal.Hand.take128 Cert.KernelIdeal.Hand.take64
          (Cert.KernelIdeal.Hand.srcOk_of_pre m hpre) c), (h c).2⟩)
      (Cert.KernelIdeal.Gen.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.Hand.res_eq, (hagree c).1, (hagree c).2.1, (hagree c).2.2.1, (hagree c).2.2.2.1, (hagree c).2.2.2.2.1,
      (hagree c).2.2.2.2.2]
    exact kout_eq_out _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
